-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S27x64x64 : Shape := ⟨3, ![27, 64, 64]⟩
abbrev S64 : Shape := ⟨1, ![64]⟩
abbrev S27x40000 : Shape := ⟨2, ![27, 40000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S27x64x64 .f32) (main_arg2 : FVec F S64 .f32) (main_arg3 : FVec F S64 .f32) (main_arg4 : IVec S27x40000 32) (main_arg5 : IVec S27x40000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S27x64x64 : Shape := ⟨3, ![27, 64, 64]⟩
abbrev S64 : Shape := ⟨1, ![64]⟩
abbrev S27x40000 : Shape := ⟨2, ![27, 40000]⟩
abbrev S_ : Shape := ⟨0, ![]⟩
abbrev S27x40000x1 : Shape := ⟨3, ![27, 40000, 1]⟩
abbrev S27x40000x64 : Shape := ⟨3, ![27, 40000, 64]⟩
abbrev S1x20000x64 : Shape := ⟨3, ![1, 20000, 64]⟩
abbrev S1x64x64 : Shape := ⟨3, ![1, 64, 64]⟩
abbrev S20000x64 : Shape := ⟨2, ![20000, 64]⟩
abbrev S64x64 : Shape := ⟨2, ![64, 64]⟩
abbrev S1080000 : Shape := ⟨1, ![1080000]⟩
abbrev S1080000x64 : Shape := ⟨2, ![1080000, 64]⟩
abbrev S1080000x1 : Shape := ⟨2, ![1080000, 1]⟩
abbrev S2x64 : Shape := ⟨2, ![2, 64]⟩
abbrev S10000x64 : Shape := ⟨2, ![10000, 64]⟩
abbrev S1x64 : Shape := ⟨2, ![1, 64]⟩

abbrev nBuf : Space → Nat
  | .hbm => 47
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S27x40000, .i32⟩
  | .hbm, ⟨5, _⟩ => ⟨S27x40000, .i32⟩
  | .hbm, ⟨6, _⟩ => ⟨S_, .i32⟩
  | .hbm, ⟨7, _⟩ => ⟨S27x40000, .i32⟩
  | .hbm, ⟨8, _⟩ => ⟨S27x40000, .i1⟩
  | .hbm, ⟨9, _⟩ => ⟨S_, .i32⟩
  | .hbm, ⟨10, _⟩ => ⟨S27x40000, .i32⟩
  | .hbm, ⟨11, _⟩ => ⟨S27x40000, .i32⟩
  | .hbm, ⟨12, _⟩ => ⟨S27x40000, .i32⟩
  | .hbm, ⟨13, _⟩ => ⟨S27x40000x1, .i32⟩
  | .hbm, ⟨14, _⟩ => ⟨S27x40000x64, .f32⟩
  | .hbm, ⟨15, _⟩ => ⟨S27x40000x64, .f32⟩
  | .hbm, ⟨16, _⟩ => ⟨S_, .f32⟩
  | .hbm, ⟨17, _⟩ => ⟨S100000x64, .f32⟩
  | .hbm, ⟨18, _⟩ => ⟨S1080000, .i32⟩
  | .hbm, ⟨19, _⟩ => ⟨S1080000x64, .f32⟩
  | .hbm, ⟨20, _⟩ => ⟨S_, .i32⟩
  | .hbm, ⟨21, _⟩ => ⟨S1080000, .i32⟩
  | .hbm, ⟨22, _⟩ => ⟨S1080000, .i1⟩
  | .hbm, ⟨23, _⟩ => ⟨S_, .i32⟩
  | .hbm, ⟨24, _⟩ => ⟨S1080000, .i32⟩
  | .hbm, ⟨25, _⟩ => ⟨S1080000, .i32⟩
  | .hbm, ⟨26, _⟩ => ⟨S1080000, .i32⟩
  | .hbm, ⟨27, _⟩ => ⟨S1080000x1, .i32⟩
  | .hbm, ⟨28, _⟩ => ⟨S100000x64, .f32⟩
  | .hbm, ⟨29, _⟩ => ⟨S2x64, .f32⟩
  | .hbm, ⟨30, _⟩ => ⟨S1x64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S100000x64, .f32⟩
  | .local _ .vmem, ⟨0, _⟩ => ⟨S1x20000x64, .f32⟩
  | .local _ .vmem, ⟨1, _⟩ => ⟨S1x20000x64, .f32⟩
  | .local _ .vmem, ⟨2, _⟩ => ⟨S1x64x64, .f32⟩
  | .local _ .vmem, ⟨3, _⟩ => ⟨S1x64x64, .f32⟩
  | .local _ .vmem, ⟨4, _⟩ => ⟨S1x20000x64, .f32⟩
  | .local _ .vmem, ⟨5, _⟩ => ⟨S1x20000x64, .f32⟩
  | .local _ .vmem, ⟨6, _⟩ => ⟨S10000x64, .f32⟩
  | .local _ .vmem, ⟨7, _⟩ => ⟨S10000x64, .f32⟩
  | .local _ .vmem, ⟨8, _⟩ => ⟨S2x64, .f32⟩
  | .local _ .vmem, ⟨9, _⟩ => ⟨S10000x64, .f32⟩
  | .local _ .vmem, ⟨10, _⟩ => ⟨S10000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16

abbrev nD : Nat := 1
abbrev τ : Topo := Topo.v7x

variable {F : FTy → Type} [FloatOps F]

abbrev grid0 : Pipeline.Grid := ⟨2, ![27, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S27x40000 : S_.BroadcastsInDim S27x40000 (![] : Fin 0 → Fin S27x40000.rank)
  bcast_S27x40000_S27x40000x1_0_1 : S27x40000.BroadcastsInDim S27x40000x1 (![0, 1] : Fin 2 → Fin S27x40000x1.rank)
  inb_S1x20000x64_S1x20000x64_0_0_0 : ∀ a, (![0, 0, 0] : Fin 3 → Nat) a + S1x20000x64.size a ≤ S1x20000x64.size a
  h_S1x20000x64 : 0 < S1x20000x64.numel
  shapeCasts_S1x20000x64_S20000x64 : S1x20000x64.ShapeCasts S20000x64
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S20000x64_S1x20000x64 : S20000x64.ShapeCasts S1x20000x64
  bcast_S_S100000x64 : S_.BroadcastsInDim S100000x64 (![] : Fin 0 → Fin S100000x64.rank)
  shapeCasts_S27x40000_S1080000 : S27x40000.ShapeCasts S1080000
  shapeCasts_S27x40000x64_S1080000x64 : S27x40000x64.ShapeCasts S1080000x64
  bcast_S_S1080000 : S_.BroadcastsInDim S1080000 (![] : Fin 0 → Fin S1080000.rank)
  bcast_S1080000_S1080000x1_0 : S1080000.BroadcastsInDim S1080000x1 (![0] : Fin 1 → Fin S1080000x1.rank)
  inb_S2x64_S2x64_0_0 : ∀ a, (![0, 0] : Fin 2 → Nat) a + S2x64.size a ≤ S2x64.size a
  h_S2x64 : 0 < S2x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S2x64_S1x64_0_0 : ∀ a, (![0, 0] : Fin 2 → Nat) a + S1x64.size a ≤ S2x64.size a
  h_S1x64 : 0 < S1x64.numel
  shapeCasts_S1x64_S64 : S1x64.ShapeCasts S64
  reduces_S10000x64_S64 : S10000x64.Reduces [0] S64
  shapeCasts_S64_S1x64 : S64.ShapeCasts S1x64
  inb_S2x64_S1x64_1_0 : ∀ a, (![1, 0] : Fin 2 → Nat) a + S1x64.size a ≤ S2x64.size a
  slices_S2x64_S1x64_0_0 : S2x64.Slices ![0, 0] S1x64
  bcast_S_S64 : S_.BroadcastsInDim S64 (![] : Fin 0 → Fin S64.rank)
  slices_S2x64_S1x64_1_0 : S2x64.Slices ![1, 0] S1x64
  inb_S1x64_S1x64_0_0 : ∀ a, (![0, 0] : Fin 2 → Nat) a + S1x64.size a ≤ S1x64.size a
  shapeCasts_S1x64_S1x64 : S1x64.ShapeCasts S1x64
  broadcasts_S1x64_S10000x64 : S1x64.Broadcasts S10000x64
  gather_S100000x64_S27x40000x1_S27x40000x64_2_0_n_n_0_2_164_wf : GatherDims.WF S100000x64 S27x40000x1 S27x40000x64 [2] [0] [] [0] [] 2 ![1, 64]
  dot_S20000x64_S64x64_S20000x64_1_0_0_1_n_n_wf : DotDims.WF S20000x64 S64x64 S20000x64 [1] [0] [0] [1] [] []
  scatter_S100000x64_S1080000x1_S1080000x64_1_0_0_1_wf : ScatterDims.WF S100000x64 S1080000x1 S1080000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20000x64.size a ≤ S27x40000x64.size a
  hwx0_0 : ∀ i : grid0.Coords, EltTy.bits .f32 = 32 ∨ (Rect.block (s := S27x40000x64) S1x20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .f32 = 32 ∨ (Rect.block (s := S27x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20000x64.size a ≤ S27x40000x64.size a
  hwx0_2 : ∀ i : grid0.Coords, EltTy.bits .f32 = 32 ∨ (Rect.block (s := S27x40000x64) S1x20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x64.size a ≤ S2x64.size a
  hwx1_1 : ∀ i : grid1.Coords, EltTy.bits .f32 = 32 ∨ (Rect.block (s := S2x64) S2x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)

variable [Facts₀]

def gather_S100000x64_S27x40000x1_S27x40000x64_2_0_n_n_0_2_164 : GatherDims S100000x64 S27x40000x1 S27x40000x64 where
  offsetDims := [2]
  collapsedSliceDims := [0]
  operandBatchingDims := []
  startIndicesBatchingDims := []
  startIndexMap := [0]
  indexVectorDim := 2
  sliceSizes := ![1, 64]
  wf := gather_S100000x64_S27x40000x1_S27x40000x64_2_0_n_n_0_2_164_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S100000x64_S1080000x1_S1080000x64_1_0_0_1 : ScatterDims S100000x64 S1080000x1 S1080000x64 where
  updateWindowDims := [1]
  insertedWindowDims := [0]
  scatterDimsToOperandDims := [0]
  indexVectorDim := 1
  wf := scatter_S100000x64_S1080000x1_S1080000x64_1_0_0_1_wf

abbrev win0_0 : Pipeline.Window sig grid0 :=
  Pipeline.Window.ofSpec (Memref.whole main_v6) S1x20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2x64.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v17) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S27x64x64 : Shape := ⟨3, ![27, 64, 64]⟩
abbrev S64 : Shape := ⟨1, ![64]⟩
abbrev S27x40000 : Shape := ⟨2, ![27, 40000]⟩
abbrev S_ : Shape := ⟨0, ![]⟩
abbrev S27x40000x1 : Shape := ⟨3, ![27, 40000, 1]⟩
abbrev S27x40000x64 : Shape := ⟨3, ![27, 40000, 64]⟩
abbrev S1080000 : Shape := ⟨1, ![1080000]⟩
abbrev S1080000x64 : Shape := ⟨2, ![1080000, 64]⟩
abbrev S1080000x1 : Shape := ⟨2, ![1080000, 1]⟩
abbrev S1x64 : Shape := ⟨2, ![1, 64]⟩

abbrev nBuf : Space → Nat
  | .hbm => 62
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S27x40000, .i32⟩
  | .hbm, ⟨5, _⟩ => ⟨S27x40000, .i32⟩
  | .hbm, ⟨6, _⟩ => ⟨S_, .i32⟩
  | .hbm, ⟨7, _⟩ => ⟨S27x40000, .i32⟩
  | .hbm, ⟨8, _⟩ => ⟨S27x40000, .i1⟩
  | .hbm, ⟨9, _⟩ => ⟨S_, .i32⟩
  | .hbm, ⟨10, _⟩ => ⟨S27x40000, .i32⟩
  | .hbm, ⟨11, _⟩ => ⟨S27x40000, .i32⟩
  | .hbm, ⟨12, _⟩ => ⟨S27x40000, .i32⟩
  | .hbm, ⟨13, _⟩ => ⟨S27x40000x1, .i32⟩
  | .hbm, ⟨14, _⟩ => ⟨S27x40000x64, .f32⟩
  | .hbm, ⟨15, _⟩ => ⟨S27x40000x64, .f32⟩
  | .hbm, ⟨16, _⟩ => ⟨S_, .f32⟩
  | .hbm, ⟨17, _⟩ => ⟨S100000x64, .f32⟩
  | .hbm, ⟨18, _⟩ => ⟨S1080000, .i32⟩
  | .hbm, ⟨19, _⟩ => ⟨S1080000x64, .f32⟩
  | .hbm, ⟨20, _⟩ => ⟨S_, .i32⟩
  | .hbm, ⟨21, _⟩ => ⟨S1080000, .i32⟩
  | .hbm, ⟨22, _⟩ => ⟨S1080000, .i1⟩
  | .hbm, ⟨23, _⟩ => ⟨S_, .i32⟩
  | .hbm, ⟨24, _⟩ => ⟨S1080000, .i32⟩
  | .hbm, ⟨25, _⟩ => ⟨S1080000, .i32⟩
  | .hbm, ⟨26, _⟩ => ⟨S1080000, .i32⟩
  | .hbm, ⟨27, _⟩ => ⟨S1080000x1, .i32⟩
  | .hbm, ⟨28, _⟩ => ⟨S100000x64, .f32⟩
  | .hbm, ⟨29, _⟩ => ⟨S_, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  bcast_S_S27x40000 : S_.BroadcastsInDim S27x40000 (![] : Fin 0 → Fin S27x40000.rank)
  bcast_S27x40000_S27x40000x1_0_1 : S27x40000.BroadcastsInDim S27x40000x1 (![0, 1] : Fin 2 → Fin S27x40000x1.rank)
  bcast_S_S100000x64 : S_.BroadcastsInDim S100000x64 (![] : Fin 0 → Fin S100000x64.rank)
  shapeCasts_S27x40000_S1080000 : S27x40000.ShapeCasts S1080000
  shapeCasts_S27x40000x64_S1080000x64 : S27x40000x64.ShapeCasts S1080000x64
  bcast_S_S1080000 : S_.BroadcastsInDim S1080000 (![] : Fin 0 → Fin S1080000.rank)
  bcast_S1080000_S1080000x1_0 : S1080000.BroadcastsInDim S1080000x1 (![0] : Fin 1 → Fin S1080000x1.rank)
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S27x40000x1_S27x40000x64_2_0_n_n_0_2_164_wf : GatherDims.WF S100000x64 S27x40000x1 S27x40000x64 [2] [0] [] [0] [] 2 ![1, 64]
  dot_S27x40000x64_S27x64x64_S27x40000x64_2_1_1_2_0_0_wf : DotDims.WF S27x40000x64 S27x64x64 S27x40000x64 [2] [1] [1] [2] [0] [0]
  scatter_S100000x64_S1080000x1_S1080000x64_1_0_0_1_wf : ScatterDims.WF S100000x64 S1080000x1 S1080000x64 [1] [0] [0] 1

variable [Facts₀]

def gather_S100000x64_S27x40000x1_S27x40000x64_2_0_n_n_0_2_164 : GatherDims S100000x64 S27x40000x1 S27x40000x64 where
  offsetDims := [2]
  collapsedSliceDims := [0]
  operandBatchingDims := []
  startIndicesBatchingDims := []
  startIndexMap := [0]
  indexVectorDim := 2
  sliceSizes := ![1, 64]
  wf := gather_S100000x64_S27x40000x1_S27x40000x64_2_0_n_n_0_2_164_wf
def dot_S27x40000x64_S27x64x64_S27x40000x64_2_1_1_2_0_0 : DotDims S27x40000x64 S27x64x64 S27x40000x64 where
  lhsContracting := [2]
  rhsContracting := [1]
  lhsNonContracting := [1]
  rhsNonContracting := [2]
  lhsBatch := [0]
  rhsBatch := [0]
  wf := dot_S27x40000x64_S27x64x64_S27x40000x64_2_1_1_2_0_0_wf
def scatter_S100000x64_S1080000x1_S1080000x64_1_0_0_1 : ScatterDims S100000x64 S1080000x1 S1080000x64 where
  updateWindowDims := [1]
  insertedWindowDims := [0]
  scatterDimsToOperandDims := [0]
  indexVectorDim := 1
  wf := scatter_S100000x64_S1080000x1_S1080000x64_1_0_0_1_wf

class Facts : Prop extends Facts₀ where

variable [Facts]
-- ==== Proof.Spec.lean ====
/-
  What both programs compute, index by index, on the extended reals.

  A sparse convolution block: rows of `x` are gathered by `in_idx`, each gathered row is multiplied by the
  weight matrix of its kernel offset (`contrib`), the products are scatter-added into `out`; then every
  channel `j` of `out` is normalised by its mean and variance over the 100000 rows, scaled, shifted and
  clamped at zero (`normalize`).

  The two programs differ in one place only: the kernel takes the variance of a channel as the mean of the
  squares minus the square of the mean (`varMoment`), the reference as the mean of the squared deviations
  (`varCentered`). Over real entries the two agree (`var_law`); at an infinite entry they need not, so the
  law is stated for arrays all of whose entries are real.
-/
import Idealize.ShloMosaic.PureOps.Ideal
import Idealize.ShloMosaic.Lib.ValueIdx

noncomputable section

namespace Cert.Spec

open Idealize.ShloMosaic Idealize.ShloMosaic.ValueIdx

/-- The scatter-added array `out`: 100000 rows of 64 channels. -/
abbrev SOut : Shape := ⟨2, ![100000, 64]⟩
/-- Gathered features and per-offset products: 27 offsets, 40000 pairs, 64 channels. -/
abbrev SFeat : Shape := ⟨3, ![27, 40000, 64]⟩
/-- The weights: one 64 by 64 matrix per offset. -/
abbrev SWt : Shape := ⟨3, ![27, 64, 64]⟩

/-- The number of rows, as the float both programs divide by (the word of 100000.0). -/
def rows : EReal := Ideal.ofBits .f32 0x47C35000#32
/-- The stabiliser under the reciprocal square root (the word both programs print for 1e-5). -/
def eps : EReal := Ideal.ofBits .f32 0x3727C5AC#32

/-- Row `p` of offset `k` of the gathered features times offset `k`'s weight matrix, at output channel `o`. -/
def contribAt (feat : SFeat.Idx → EReal) (w : SWt.Idx → EReal) (k : Fin 27) (p : Fin 40000) (o : Fin 64) : EReal :=
  ∑ i : Fin 64, feat (ix3 k p i) * w (ix3 k i o)

/-- The per-offset products as one array. -/
def contrib (feat : SFeat.Idx → EReal) (w : SWt.Idx → EReal) : SFeat.Idx → EReal :=
  fun i => contribAt feat w (i 0) (i 1) (i 2)

theorem contrib_ix3 (feat : SFeat.Idx → EReal) (w : SWt.Idx → EReal) (k : Fin 27) (p : Fin 40000) (o : Fin 64) :
    contrib feat w (ix3 k p o) = contribAt feat w k p o := rfl

/-- The sum of channel `j` over all rows. -/
def colSum (o : SOut.Idx → EReal) (j : Fin 64) : EReal := ∑ r : Fin 100000, o (ix2 r j)
/-- The sum of the squares of channel `j` over all rows. -/
def colSumSq (o : SOut.Idx → EReal) (j : Fin 64) : EReal := ∑ r : Fin 100000, o (ix2 r j) * o (ix2 r j)
/-- The mean of channel `j`. -/
def mean (o : SOut.Idx → EReal) (j : Fin 64) : EReal := Ideal.div (colSum o j) rows
/-- The variance of channel `j` as the kernel takes it: mean of squares minus square of mean. -/
def varMoment (o : SOut.Idx → EReal) (j : Fin 64) : EReal :=
  Ideal.div (colSumSq o j) rows - mean o j * mean o j
/-- The variance of channel `j` as the reference takes it: mean of the squared deviations from the mean. -/
def varCentered (o : SOut.Idx → EReal) (j : Fin 64) : EReal :=
  Ideal.div (∑ r : Fin 100000, (o (ix2 r j) - mean o j) * (o (ix2 r j) - mean o j)) rows

/-- One entry normalised: centred, scaled by the reciprocal root of variance plus `eps`, by `g`, shifted by
    `b`, clamped below at zero (the zero word kept as printed: it is the same on both sides). -/
def normalizeAt (x mu v g b : EReal) : EReal :=
  max (((x - mu) * Ideal.rsqrt (v + eps)) * g + b) (Ideal.ofBits .f32 0x00000000#32)

/-- The result array from `out`, the per-channel mean and variance, scale and shift. -/
def normalize (o : SOut.Idx → EReal) (mu v g b : Fin 64 → EReal) : SOut.Idx → EReal :=
  fun i => normalizeAt (o i) (mu (i 1)) (v (i 1)) (g (i 1)) (b (i 1))

theorem normalize_ix2 (o : SOut.Idx → EReal) (mu v g b : Fin 64 → EReal) (r : Fin 100000) (j : Fin 64) :
    normalize o mu v g b (ix2 r j) = normalizeAt (o (ix2 r j)) (mu j) (v j) (g j) (b j) := rfl

/-- An array all of whose entries are real numbers. -/
def AllReal {s : Shape} (o : s.Idx → EReal) : Prop := ∀ i, ∃ x : ℝ, o i = (x : EReal)

/-- The pattern 0x47C35000 denotes the real number 100000 (sign 0, exponent 143, fraction 4411392). -/
private theorem rows_eq : rows = ((100000 : ℝ) : EReal) := by
  simp [rows, Ideal.ofBits, Ideal.ieee, -EReal.coe_mul]; norm_num

/-- The coercion of reals into the extended reals commutes with finite sums. -/
private theorem coe_sum {ι : Type} (s : Finset ι) (f : ι → ℝ) :
    ∑ r ∈ s, ((f r : ℝ) : EReal) = ((∑ r ∈ s, f r : ℝ) : EReal) := by
  classical
  refine Finset.induction_on s (by simp) ?_
  intro a t ha ih
  rw [Finset.sum_insert ha, Finset.sum_insert ha, ih, EReal.coe_add]

/-- The real identity: with μ = S/n, (1/n) Σ (x − μ)² = (1/n) Σ x² − μ². -/
private theorem var_real (x : Fin 100000 → ℝ) :
    (∑ r, (x r - (∑ r, x r) * (1 / 100000)) * (x r - (∑ r, x r) * (1 / 100000))) * (1 / 100000)
      = (∑ r, x r * x r) * (1 / 100000) - (∑ r, x r) * (1 / 100000) * ((∑ r, x r) * (1 / 100000)) := by
  have hexp : ∀ r, (x r - (∑ r, x r) * (1 / 100000)) * (x r - (∑ r, x r) * (1 / 100000))
      = x r * x r - (2 * ((∑ r, x r) * (1 / 100000))) * x r
        + ((∑ r, x r) * (1 / 100000)) * ((∑ r, x r) * (1 / 100000)) := fun r => by ring
  simp only [hexp, Finset.sum_add_distrib, Finset.sum_sub_distrib, ← Finset.mul_sum, Finset.sum_const,
    Finset.card_univ, Fintype.card_fin, nsmul_eq_mul]
  generalize (∑ r, x r) = S
  generalize (∑ r, x r * x r) = Q
  push_cast
  ring

/-- On an array of reals the two variances are one number: with μ = S/n,
    Σ (o − μ)² = Σ o² − 2 μ S + n μ² = Σ o² − n μ², and dividing by n gives Σ o²/n − μ². -/
theorem var_law (o : SOut.Idx → EReal) (h : AllReal o) (j : Fin 64) : varCentered o j = varMoment o j := by
  choose x hx using fun r : Fin 100000 => h (ix2 r j)
  unfold varCentered varMoment mean colSum colSumSq
  simp only [hx, rows_eq, Ideal.div_coe (by norm_num : (100000 : ℝ) ≠ 0)]
  simp only [coe_sum, ← EReal.coe_mul, ← EReal.coe_sub]
  exact congrArg _ (var_real x)

end Cert.Spec

end
-- ==== Proof.GemmValue.lean ====
/-
  The first launch: the per-offset products.
  Grid point (k, h) multiplies rows 20000 h .. 20000 h + 19999 of offset k's gathered features by offset k's
  64 by 64 weight matrix into the zero accumulator and writes the block back whole; the 54 blocks tile the
  result, so the array the launch leaves is `Spec.contrib` of the two arrays it found.
-/
import proofs.«154689_j257698038139_1_alg».proof.Proof.Gen.KernelIdeal.Frame
import proofs.«154689_j257698038139_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GemmValue

open Cert.KernelIdeal Cert.KernelIdeal.Gen Idealize.ShloMosaic Idealize.ShloMosaic.TcCoe Idealize.ShloMosaic.ValueIdx
open Idealize.SL.Sem

/-! ## One block's product at an index -/

/-! The contraction of the block product reads, at result entry (row, column) and contraction index `q`, the left
    operand at (row, `q`) and the right operand at (`q`, column): one lemma per operand axis. -/

private theorem lhs_row (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
private theorem lhs_chan (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q
private theorem rhs_chan (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q
private theorem rhs_col (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- The block product into the zero accumulator, at row `r` and output channel `o`. -/
private theorem matmul_at (a : FVec Ideal S20000x64 .bf16) (b : FVec Ideal S64x64 .bf16) (r : Fin 20000) (o : Fin 64) :
    FloatOps.matmul dot_S20000x64_S64x64_S20000x64_1_0_0_1_n_n none a b (constant (F := Ideal) S20000x64 .f32 0x00000000#32) (ix2 r o)
      = ∑ i : Fin 64, a (ix2 r i) * b (ix2 i o) := by
  rw [Ideal.matmul_constant_zero_apply, ← Equiv.sum_comp (ValueIdx.contrEquiv1 dot_S20000x64_S64x64_S20000x64_1_0_0_1_n_n 64 rfl rfl).symm]
  refine Finset.sum_congr rfl fun k _ => ?_
  have hk := ValueIdx.contrEquiv1_symm_val dot_S20000x64_S64x64_S20000x64_1_0_0_1_n_n 64 rfl rfl k
  have el : dot_S20000x64_S64x64_S20000x64_1_0_0_1_n_n.lhsIdx (ix2 r o) ((ValueIdx.contrEquiv1 dot_S20000x64_S64x64_S20000x64_1_0_0_1_n_n 64 rfl rfl).symm k) = ix2 r k := funext fun a => Fin.ext (by
    match a with
    | ⟨0, _⟩ => exact lhs_row _ _
    | ⟨1, _⟩ => exact (lhs_chan _ _).trans hk)
  have er : dot_S20000x64_S64x64_S20000x64_1_0_0_1_n_n.rhsIdx (ix2 r o) ((ValueIdx.contrEquiv1 dot_S20000x64_S64x64_S20000x64_1_0_0_1_n_n 64 rfl rfl).symm k) = ix2 k o := funext fun a => Fin.ext (by
    match a with
    | ⟨0, _⟩ => exact (rhs_chan _ _).trans hk
    | ⟨1, _⟩ => exact rhs_col _ _)
  rw [el, er]

/-- What the body stores, at row `r` and channel `o` of its block: the row of the feature block against the column of the
    weight block. The narrowing to bf16 is the identity on the extended reals. -/
private theorem pay_at (x0 : Vec Ideal S1x20000x64 .f32) (x1 : Vec Ideal S1x64x64 .f32) (r : Fin 20000) (o : Fin 64) :
    k0_pay1 x0 x1 (ix3 (0 : Fin 1) r o) = ∑ i : Fin 64, x0 (ix3 0 r i) * x1 (ix3 0 i o) := by
  unfold k0_pay1
  refine (shapeCast_ab_1ab_apply _ shapeCasts_S20000x64_S1x20000x64 0 r o).trans ?_
  refine (matmul_at _ _ r o).trans ?_
  refine Finset.sum_congr rfl fun i _ => ?_
  rw [truncf_apply, truncf_apply, shapeCast_1ab_ab_apply, shapeCast_1ab_ab_apply]

/-! ## From the blocks to the array -/

private theorem zero_offsets : (![0, 0, 0] : Fin 3 → Nat) = fun _ => 0 := funext fun a => by fin_cases a <;> rfl

/-- A block of the products is the product of the blocks: if row `r` of the feature block is row `p` of offset `k`'s
    features and the weight block is offset `k`'s matrix, the body's entry at row `r`, channel `o` is the product's
    entry at offset `k`, row `p`, channel `o`. -/
private theorem block_product (feat : Cert.Spec.SFeat.Idx → EReal) (w : Cert.Spec.SWt.Idx → EReal)
    (x0 : Vec Ideal S1x20000x64 .f32) (x1 : Vec Ideal S1x64x64 .f32)
    (u : Fin 1) (r : Fin 20000) (o : Fin 64) (k : Fin 27) (p : Fin 40000)
    (h0 : ∀ i : Fin 64, x0 (ix3 (0 : Fin 1) r i) = feat (ix3 k p i))
    (h1 : ∀ i : Fin 64, x1 (ix3 (0 : Fin 1) i o) = w (ix3 k i o)) :
    k0_pay1 x0 x1 (ix3 u r o) = Cert.Spec.contrib feat w (ix3 k p o) := by
  obtain rfl : u = 0 := Subsingleton.elim _ _
  rw [pay_at, Cert.Spec.contrib_ix3]
  unfold Cert.Spec.contribAt
  exact Finset.sum_congr rfl fun i _ => by rw [h0, h1]

/-- The three index maps over the 54 grid points, decided: the feature block and the result block sit at the same
    (offset, half); the weight block at the same offset and nowhere else; offsets below 27, halves below 2. -/
private theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 26
    ∧ win0_2.index t (1 : Fin 3) ≤ 1
    ∧ win0_2.index t (2 : Fin 3) = 0 :=
  (by decide +kernel : ∀ t : Fin grid0.N, _)

/-- Every (offset, half) is some grid point's result block. -/
private theorem block_onto : ∀ (k : Fin 27) (h : Fin 2), ∃ t : Fin cfg0.N, win0_2.index t = ![k.val, h.val, 0] :=
  (by decide +kernel : ∀ (k : Fin 27) (h : Fin 2), ∃ t : Fin grid0.N, win0_2.index t = ![k.val, h.val, 0])

section
variable (V : (c : Dev nD) → (b : Ref sig .tc) → Buf (Elt Ideal) ((c : Thread nD τ).loc b)) (c : Dev nD)

/-- What grid point `t` writes back is its block of the per-offset products of the two arrays the launch found. -/
private theorem written_back (t : Fin cfg0.N) :
    (dat0 (F := Ideal) V c).flushed 2 t
      = ((cfg0.win 2).blk t).view.read (Elt Ideal) (Cert.Spec.contrib (V c main_v6) (V c main_arg1)) := by
  show (cfg0.win 2).cut (grid0.coords t) ((dat0 (F := Ideal) V c).after 2 t) = _
  rw [after0_2]
  unfold out0_2
  rw [View.canon_unit_zero zero_offsets]
  simp only [View.ld_unit_zero (S := S1x20000x64) zero_offsets, View.ld_unit_zero (S := S1x64x64) zero_offsets]
  obtain ⟨e00, e01, e02, e10, e11, e12, b0, b1, e22⟩ := block_indices t
  refine funext fun (j : S1x20000x64.Idx) => ?_
  show k0_pay1 (iblk0 V c 0 t) (iblk0 V c 1 t) j
      = Cert.Spec.contrib (V c main_v6) (V c main_arg1) (((cfg0.win 2).blk t).view.emb j)
  obtain ⟨u, r, o, rfl⟩ : ∃ (u : Fin 1) (r : Fin 20000) (o : Fin 64), j = ix3 u r o := ⟨j 0, j 1, j 2, eq_ix3 j⟩
  have hr : r.val < 20000 := r.isLt
  have ho : o.val < 64 := o.isLt
  -- the entry's place in the array: offset `k`, row `p` of the half the point works on
  have e2 : ((cfg0.win 2).blk t).view.emb (ix3 u r o)
      = ix3 (⟨win0_2.index t (0 : Fin 3), by omega⟩ : Fin 27) (⟨win0_2.index t (1 : Fin 3) * 20000 + r.val, by omega⟩ : Fin 40000) o :=
    funext fun a => Fin.ext (by
      match a with
      | ⟨0, _⟩ => show win0_2.index t (0 : Fin 3) * 1 + 1 * u.val = win0_2.index t (0 : Fin 3); have hu : u.val < 1 := u.isLt; omega
      | ⟨1, _⟩ => show win0_2.index t (1 : Fin 3) * 20000 + 1 * r.val = win0_2.index t (1 : Fin 3) * 20000 + r.val; omega
      | ⟨2, _⟩ => show win0_2.index t (2 : Fin 3) * 64 + 1 * o.val = o.val; omega)
  refine (block_product (V c main_v6) (V c main_arg1) (iblk0 V c 0 t) (iblk0 V c 1 t) u r o
    (⟨win0_2.index t (0 : Fin 3), by omega⟩ : Fin 27) (⟨win0_2.index t (1 : Fin 3) * 20000 + r.val, by omega⟩ : Fin 40000)
    (fun i => ?_) (fun i => ?_)).trans (congrArg (Cert.Spec.contrib (V c main_v6) (V c main_arg1)) e2.symm)
  · -- row `r` of the feature block is row `p` of offset `k`
    have hi : i.val < 64 := i.isLt
    show V c main_v6 (((cfg0.win 0).blk t).view.emb (ix3 (0 : Fin 1) r i)) = V c main_v6 _
    refine congrArg (V c main_v6) (funext fun a => Fin.ext ?_)
    match a with
    | ⟨0, _⟩ => show win0_0.index t (0 : Fin 3) * 1 + 1 * 0 = win0_2.index t (0 : Fin 3); omega
    | ⟨1, _⟩ => show win0_0.index t (1 : Fin 3) * 20000 + 1 * r.val = win0_2.index t (1 : Fin 3) * 20000 + r.val; omega
    | ⟨2, _⟩ => show win0_0.index t (2 : Fin 3) * 64 + 1 * i.val = i.val; omega
  · -- the weight block is offset `k`'s matrix
    have hi : i.val < 64 := i.isLt
    show V c main_arg1 (((cfg0.win 1).blk t).view.emb (ix3 (0 : Fin 1) i o)) = V c main_arg1 _
    refine congrArg (V c main_arg1) (funext fun a => Fin.ext ?_)
    match a with
    | ⟨0, _⟩ => show win0_1.index t (0 : Fin 3) * 1 + 1 * 0 = win0_2.index t (0 : Fin 3); omega
    | ⟨1, _⟩ => show win0_1.index t (1 : Fin 3) * 64 + 1 * i.val = i.val; omega
    | ⟨2, _⟩ => show win0_1.index t (2 : Fin 3) * 64 + 1 * o.val = o.val; omega

/-- An index of the result array is in point `t`'s block iff each coordinate is in the block's range on its axis. -/
private theorem mem_block (t : Fin cfg0.N) (i : S27x40000x64.Idx) :
    i ∈ ((cfg0.win 2).blk t).view.set ↔ ∀ a : Fin 3, win0_2.index t a * S1x20000x64.size a ≤ (i a).val
      ∧ (i a).val < win0_2.index t a * S1x20000x64.size a + S1x20000x64.size a := by
  show i ∈ ((View.whole main_v7).slice (win0_2.rect t)).set ↔ _
  rw [View.set_slice_whole, Rect.mem_set_unit]
  exact Iff.rfl

/-- The 54 blocks tile the result: row `p` of offset `k` lies in the block of the point at (`k`, `p / 20000`). -/
private theorem blocks_cover (i : S27x40000x64.Idx) :
    ∃ t : Fin cfg0.N, (cfg0.win 2).flush t = true ∧ i ∈ ((cfg0.win 2).blk t).view.set := by
  have h0 : (i 0).val < 27 := (i 0).isLt
  have h1 : (i 1).val < 40000 := (i 1).isLt
  have h2 : (i 2).val < 64 := (i 2).isLt
  obtain ⟨t, ht⟩ := block_onto ⟨(i 0).val, h0⟩ ⟨(i 1).val / 20000, by omega⟩
  have q0 : win0_2.index t (0 : Fin 3) = (i 0).val := congrFun ht 0
  have q1 : win0_2.index t (1 : Fin 3) = (i 1).val / 20000 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 20000 ≤ (i 1).val ∧ (i 1).val < win0_2.index t (1 : Fin 3) * 20000 + 20000; omega
  | ⟨2, _⟩ => show win0_2.index t (2 : Fin 3) * 64 ≤ (i 2).val ∧ (i 2).val < win0_2.index t (2 : Fin 3) * 64 + 64; omega

end

/-- Whatever the buffers hold when the first launch is entered (`V`), it leaves in its result array the
    per-offset products of the gathered features (`main_v6`) and the weights (`main_arg1`). -/
theorem gemm_array (V : (c : Dev nD) → (b : Ref sig .tc) → Buf (Elt Ideal) ((c : Thread nD τ).loc b)) (c : Dev nD) :
    (dat0 (F := Ideal) V c).arrAt 2 cfg0.N = Cert.Spec.contrib (V c main_v6) (V c main_arg1) :=
  (dat0 (F := Ideal) V c).arrAt_eq_of_cover 2 (Cert.Spec.contrib (V c main_v6) (V c main_arg1))
    (fun t _ => written_back V c t) blocks_cover

end Cert.KernelIdeal.GemmValue

end
-- ==== Proof.StatsValue.lean ====
/-
  The second launch: the column sums.
  Ten grid points walk the 100000 rows of `out` in blocks of 10000; the 2 by 64 result block stays in its
  staging buffer from one point to the next. Point 0 clears it; every point adds the block's column sums to
  row 0 and the column sums of its squares to row 1. After the last point row 0 holds each channel's sum over
  all rows and row 1 the sum of squares.
-/
import proofs.«154689_j257698038139_1_alg».proof.Proof.Gen.KernelIdeal.Frame
import proofs.«154689_j257698038139_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.StatsValue

open Cert.KernelIdeal Cert.KernelIdeal.Gen Idealize.ShloMosaic Idealize.ShloMosaic.TcCoe Idealize.ShloMosaic.ValueIdx
open Idealize.SL.Sem

variable {F : FTy → Type} [FloatOps F]

/-! ## The arithmetic of one point, at a channel -/

/-- A lane sum over the 10000 rows of a block, read at channel `j`. -/
theorem colsum_apply (src : FVec Ideal S10000x64 .f32)
    (hacc : (0x00000000#32 : BitVec 32) = 0x00000000#32) (j : Fin 64) :
    multiReduction (F := Ideal) .add [0] S64 src 0x00000000#32 reduces_S10000x64_S64 (.inl rfl) hacc (ix1 j)
      = ∑ r : Fin 10000, src (ix2 r j) := by
  refine (Ideal.multiReduction_add_single src 0x00000000#32 reduces_S10000x64_S64 (.inl rfl) hacc (ix1 j)).trans ?_
  refine Finset.sum_congr rfl fun r _ => congrArg src ?_
  funext a
  match a with
  | ⟨0, _⟩ => rfl
  | ⟨1, _⟩ => rfl

/-- The update of row 0 at channel `j`: the entry read back plus the column sum of the block. -/
theorem pay3_apply (x : Vec Ideal S10000x64 .f32) (v5 : Vec Ideal S1x64 .f32) (u : Fin 1) (j : Fin 64) :
    k1_pay3 (F := Ideal) x v5 (ix2 u j) = v5 (ix2 (0 : Fin 1) j) + ∑ r : Fin 10000, x (ix2 r j) := by
  unfold k1_pay3 k1_pay2
  refine (shapeCast_a_1a_apply _ _ u j).trans ?_
  refine (addf_apply _ _ _).trans ?_
  refine congrArg₂ (· + ·) (shapeCast_1a_a_apply v5 _ j) ?_
  refine (colsum_apply _ rfl j).trans ?_
  rw [shapeCast_self]

/-- The update of row 1 at channel `j`: the entry read back plus the column sum of the block's squares. -/
theorem pay4_apply (x : Vec Ideal S10000x64 .f32) (v12 : Vec Ideal S1x64 .f32) (u : Fin 1) (j : Fin 64) :
    k1_pay4 (F := Ideal) x v12 (ix2 u j) = v12 (ix2 (0 : Fin 1) j) + ∑ r : Fin 10000, x (ix2 r j) * x (ix2 r j) := by
  unfold k1_pay4 k1_pay2
  refine (shapeCast_a_1a_apply _ _ u j).trans ?_
  refine (addf_apply _ _ _).trans ?_
  refine congrArg₂ (· + ·) (shapeCast_1a_a_apply v12 _ j) ?_
  refine (colsum_apply _ rfl j).trans ?_
  rw [shapeCast_self]
  rfl

/-- The clearing store writes zero at every entry. -/
theorem pay1_apply (y : S2x64.Idx) : k1_pay1 (F := Ideal) y = 0 := by
  unfold k1_pay1
  exact Ideal.ofBits_zero_f32

/-! ## Where the stores of one point land in the 2 by 64 block -/

/-- The zero offsets, as a constant function. -/
theorem hz2 : (![0, 0] : Fin 2 → Nat) = fun _ => 0 := funext fun a => by fin_cases a <;> rfl

/-- Entry `j` of a one-row rectangle at row 0 of the 2 by 64 block is the block's entry (0, j). -/
theorem emb_row0 (inb : ∀ a, (![0, 0] : Fin 2 → Nat) a + (![1, 64] : Fin 2 → Nat) a ≤ S2x64.size a) (u : Fin 1) (j : Fin 64) :
    (Rect.unit (s := S2x64) ![0, 0] ![1, 64] inb).emb (ix2 u j) = ix2 (0 : Fin 2) j := by
  funext a
  apply Fin.ext
  match a with
  | ⟨0, _⟩ => show 0 + 1 * u.val = 0; omega
  | ⟨1, _⟩ => show 0 + 1 * j.val = j.val; omega

/-- Entry `j` of a one-row rectangle at row 1 is the block's entry (1, j). -/
theorem emb_row1 (inb : ∀ a, (![1, 0] : Fin 2 → Nat) a + (![1, 64] : Fin 2 → Nat) a ≤ S2x64.size a) (u : Fin 1) (j : Fin 64) :
    (Rect.unit (s := S2x64) ![1, 0] ![1, 64] inb).emb (ix2 u j) = ix2 (1 : Fin 2) j := by
  funext a
  apply Fin.ext
  match a with
  | ⟨0, _⟩ => show 1 + 1 * u.val = 1; omega
  | ⟨1, _⟩ => show 0 + 1 * j.val = j.val; omega

/-- Row 0 is outside the rectangle at row 1. -/
theorem row0_not_mem_row1 (inb : ∀ a, (![1, 0] : Fin 2 → Nat) a + (![1, 64] : Fin 2 → Nat) a ≤ S2x64.size a) (j : Fin 64) :
    ix2 (0 : Fin 2) j ∉ (Rect.unit (s := S2x64) ![1, 0] ![1, 64] inb).set := by
  rw [Rect.mem_set_unit]
  intro h
  exact Nat.not_succ_le_zero 0 (h 0).1

/-- Row 1 is outside the rectangle at row 0. -/
theorem row1_not_mem_row0 (inb : ∀ a, (![0, 0] : Fin 2 → Nat) a + (![1, 64] : Fin 2 → Nat) a ≤ S2x64.size a) (j : Fin 64) :
    ix2 (1 : Fin 2) j ∉ (Rect.unit (s := S2x64) ![0, 0] ![1, 64] inb).set := by
  rw [Rect.mem_set_unit]
  intro h
  exact Nat.lt_irrefl 1 (h 0).2

section Stores

variable {Val : EltTy → Type} [∀ e, Nonempty (Val e)]

/-- After a store to row 1 over a store to row 0, entry (0, j) is the row-0 store's entry `j`. -/
theorem canon_rows_at_row0
    (inb1 : ∀ a, (![1, 0] : Fin 2 → Nat) a + (![1, 64] : Fin 2 → Nat) a ≤ S2x64.size a)
    (inb0 : ∀ a, (![0, 0] : Fin 2 → Nat) a + (![1, 64] : Fin 2 → Nat) a ≤ S2x64.size a)
    (w1 : (Rect.unit (s := S2x64) ![1, 0] ![1, 64] inb1).shape.Idx → Val .f32)
    (w0 : (Rect.unit (s := S2x64) ![0, 0] ![1, 64] inb0).shape.Idx → Val .f32)
    (L : List (View.Piece Val S2x64 .f32)) (j : Fin 64) :
    View.canon ((⟨Rect.unit ![1, 0] ![1, 64] inb1, w1⟩ : View.Piece Val S2x64 .f32) :: ⟨Rect.unit ![0, 0] ![1, 64] inb0, w0⟩ :: L)
      (ix2 (0 : Fin 2) j) = w0 (ix2 (0 : Fin 1) j) := by
  refine (View.canon_cons_of_not_mem (⟨Rect.unit ![1, 0] ![1, 64] inb1, w1⟩ : View.Piece Val S2x64 .f32)
    (⟨Rect.unit ![0, 0] ![1, 64] inb0, w0⟩ :: L) (row0_not_mem_row1 inb1 j)).trans ?_
  refine (congrArg (View.canon ((⟨Rect.unit ![0, 0] ![1, 64] inb0, w0⟩ : View.Piece Val S2x64 .f32) :: L))
    (emb_row0 inb0 0 j).symm).trans ?_
  exact View.canon_cons_emb (Rect.unit (s := S2x64) ![0, 0] ![1, 64] inb0) w0 L (ix2 (0 : Fin 1) j)

/-- and entry (1, j) is the row-1 store's entry `j`. -/
theorem canon_rows_at_row1
    (inb1 : ∀ a, (![1, 0] : Fin 2 → Nat) a + (![1, 64] : Fin 2 → Nat) a ≤ S2x64.size a)
    (w1 : (Rect.unit (s := S2x64) ![1, 0] ![1, 64] inb1).shape.Idx → Val .f32)
    (L : List (View.Piece Val S2x64 .f32)) (j : Fin 64) :
    View.canon ((⟨Rect.unit ![1, 0] ![1, 64] inb1, w1⟩ : View.Piece Val S2x64 .f32) :: L)
      (ix2 (1 : Fin 2) j) = w1 (ix2 (0 : Fin 1) j) := by
  refine (congrArg (View.canon ((⟨Rect.unit ![1, 0] ![1, 64] inb1, w1⟩ : View.Piece Val S2x64 .f32) :: L))
    (emb_row1 inb1 0 j).symm).trans ?_
  exact View.canon_cons_emb (Rect.unit (s := S2x64) ![1, 0] ![1, 64] inb1) w1 L (ix2 (0 : Fin 1) j)

variable {sig' : RefSig} {κ : Kind} {sp : Space}

/-- Row 0 read back after a store of the whole block: the stored block's row 0. -/
theorem readCov_row0_of_whole (v : View sig' κ sp S2x64 .f32)
    (inbW : ∀ a, (![0, 0] : Fin 2 → Nat) a + S2x64.size a ≤ S2x64.size a)
    (inb0 : ∀ a, (![0, 0] : Fin 2 → Nat) a + (![1, 64] : Fin 2 → Nat) a ≤ S2x64.size a)
    (w : S2x64.Idx → Val .f32) (u : Fin 1) (j : Fin 64) :
    v.readCov [(⟨Rect.unit ![0, 0] S2x64.size inbW, w⟩ : View.Piece Val S2x64 .f32)]
      (Rect.unit (s := S2x64) ![0, 0] ![1, 64] inb0).toLoadRect (ix2 u j) = w (ix2 (0 : Fin 2) j) := by
  refine (congrFun (View.readCov_eq_canon' v [(⟨Rect.unit ![0, 0] S2x64.size inbW, w⟩ : View.Piece Val S2x64 .f32)]
    (Rect.unit (s := S2x64) ![0, 0] ![1, 64] inb0).toLoadRect) (ix2 u j)).trans ?_
  refine (congrFun (View.canon_unit_zero hz2 inbW w) _).trans ?_
  exact congrArg w (emb_row0 inb0 u j)

/-- Row 1 read back after a store of the whole block and then a store to row 0: the whole-block store's row 1. -/
theorem readCov_row1_of_row0_whole (v : View sig' κ sp S2x64 .f32)
    (inbW : ∀ a, (![0, 0] : Fin 2 → Nat) a + S2x64.size a ≤ S2x64.size a)
    (inb0 : ∀ a, (![0, 0] : Fin 2 → Nat) a + (![1, 64] : Fin 2 → Nat) a ≤ S2x64.size a)
    (inb1 : ∀ a, (![1, 0] : Fin 2 → Nat) a + (![1, 64] : Fin 2 → Nat) a ≤ S2x64.size a)
    (w0 : (Rect.unit (s := S2x64) ![0, 0] ![1, 64] inb0).shape.Idx → Val .f32)
    (w : S2x64.Idx → Val .f32) (u : Fin 1) (j : Fin 64) :
    v.readCov [(⟨Rect.unit ![0, 0] ![1, 64] inb0, w0⟩ : View.Piece Val S2x64 .f32), ⟨Rect.unit ![0, 0] S2x64.size inbW, w⟩]
      (Rect.unit (s := S2x64) ![1, 0] ![1, 64] inb1).toLoadRect (ix2 u j) = w (ix2 (1 : Fin 2) j) := by
  refine (congrFun (View.readCov_eq_canon' v [(⟨Rect.unit ![0, 0] ![1, 64] inb0, w0⟩ : View.Piece Val S2x64 .f32), ⟨Rect.unit ![0, 0] S2x64.size inbW, w⟩]
    (Rect.unit (s := S2x64) ![1, 0] ![1, 64] inb1).toLoadRect) (ix2 u j)).trans ?_
  refine (congrArg (View.canon [(⟨Rect.unit ![0, 0] ![1, 64] inb0, w0⟩ : View.Piece Val S2x64 .f32), ⟨Rect.unit ![0, 0] S2x64.size inbW, w⟩])
    (emb_row1 inb1 u j)).trans ?_
  refine (View.canon_cons_of_not_mem (⟨Rect.unit ![0, 0] ![1, 64] inb0, w0⟩ : View.Piece Val S2x64 .f32)
    [⟨Rect.unit ![0, 0] S2x64.size inbW, w⟩] (row1_not_mem_row0 inb0 j)).trans ?_
  exact congrFun (View.canon_unit_zero hz2 inbW w) _

end Stores

/-- A load of the whole input block reads the block. -/
theorem read_whole_block (a1 : Memref sig .tc .vmem S10000x64 .f32) (h1 : a1.IsWhole)
    (inb : ∀ a, (![0, 0] : Fin 2 → Nat) a + S10000x64.size a ≤ S10000x64.size a) (x : Vec F S10000x64 .f32) :
    View.readAt (Elt F) a1.view (Rect.unit (s := S10000x64) ![0, 0] S10000x64.size inb).toLoadRect (h1.unread x) = x := by
  rw [View.readAt_eq_ld, h1.read_unread]
  exact View.ld_unit_zero hz2 inb x

/-- A load of row 0 of the 2 by 64 block reads its row 0. -/
theorem read_row0 (a2 : Memref sig .tc .vmem S2x64 .f32) (h2 : a2.IsWhole)
    (inb : ∀ a, (![0, 0] : Fin 2 → Nat) a + (![1, 64] : Fin 2 → Nat) a ≤ S2x64.size a)
    (xo : Vec F S2x64 .f32) (u : Fin 1) (j : Fin 64) :
    View.readAt (Elt F) a2.view (Rect.unit (s := S2x64) ![0, 0] ![1, 64] inb).toLoadRect (h2.unread xo) (ix2 u j)
      = xo (ix2 (0 : Fin 2) j) := by
  rw [View.readAt_eq_ld, h2.read_unread]
  exact congrArg xo (emb_row0 inb u j)

/-- A load of row 1 reads its row 1. -/
theorem read_row1 (a2 : Memref sig .tc .vmem S2x64 .f32) (h2 : a2.IsWhole)
    (inb : ∀ a, (![1, 0] : Fin 2 → Nat) a + (![1, 64] : Fin 2 → Nat) a ≤ S2x64.size a)
    (xo : Vec F S2x64 .f32) (u : Fin 1) (j : Fin 64) :
    View.readAt (Elt F) a2.view (Rect.unit (s := S2x64) ![1, 0] ![1, 64] inb).toLoadRect (h2.unread xo) (ix2 u j)
      = xo (ix2 (1 : Fin 2) j) := by
  rw [View.readAt_eq_ld, h2.read_unread]
  exact congrArg xo (emb_row1 inb u j)

/-! ## What one point leaves in the 2 by 64 block -/

/-- A later point, row 0: the previous entry plus the column sum of the point's block. -/
theorem later_row0 (c : Dev nD) (i : grid1.Coords) (a1 : Memref sig .tc .vmem S10000x64 .f32) (h1 : a1.IsWhole)
    (a2 : Memref sig .tc .vmem S2x64 .f32) (h2 : a2.IsWhole) (hc : ¬cond1_0 i)
    (x : Vec Ideal S10000x64 .f32) (xo : Vec Ideal S2x64 .f32) (j : Fin 64) :
    out1_B_1 (F := Ideal) c i a1 h1 a2 h2 hc x xo (ix2 (0 : Fin 2) j)
      = xo (ix2 (0 : Fin 2) j) + ∑ r : Fin 10000, x (ix2 r j) := by
  unfold out1_B_1
  rw [View.read_writes_eq_canon _ _ _ (cover1_B_1 c i a1 h1 a2 h2 hc x xo)]
  unfold kernelRun1_B
  dsimp only
  sl_unfold_words
  refine (canon_rows_at_row0 inb_S2x64_S1x64_1_0 inb_S2x64_S1x64_0_0 _ _ _ j).trans ?_
  refine (pay3_apply _ _ 0 j).trans ?_
  rw [read_whole_block a1 h1 inb_S10000x64_S10000x64_0_0 x, read_row0 a2 h2 inb_S2x64_S1x64_0_0 xo 0 j]

/-- A later point, row 1: the previous entry plus the column sum of squares of the point's block. -/
theorem later_row1 (c : Dev nD) (i : grid1.Coords) (a1 : Memref sig .tc .vmem S10000x64 .f32) (h1 : a1.IsWhole)
    (a2 : Memref sig .tc .vmem S2x64 .f32) (h2 : a2.IsWhole) (hc : ¬cond1_0 i)
    (x : Vec Ideal S10000x64 .f32) (xo : Vec Ideal S2x64 .f32) (j : Fin 64) :
    out1_B_1 (F := Ideal) c i a1 h1 a2 h2 hc x xo (ix2 (1 : Fin 2) j)
      = xo (ix2 (1 : Fin 2) j) + ∑ r : Fin 10000, x (ix2 r j) * x (ix2 r j) := by
  unfold out1_B_1
  rw [View.read_writes_eq_canon _ _ _ (cover1_B_1 c i a1 h1 a2 h2 hc x xo)]
  unfold kernelRun1_B
  dsimp only
  sl_unfold_words
  refine (canon_rows_at_row1 inb_S2x64_S1x64_1_0 _ _ j).trans ?_
  refine (pay4_apply _ _ 0 j).trans ?_
  rw [read_whole_block a1 h1 inb_S10000x64_S10000x64_0_0 x, read_row1 a2 h2 inb_S2x64_S1x64_1_0 xo 0 j]

/-- The first point, row 0: the column sum of the point's block (the block was cleared first). -/
theorem first_row0 (c : Dev nD) (i : grid1.Coords) (a1 : Memref sig .tc .vmem S10000x64 .f32) (h1 : a1.IsWhole)
    (a2 : Memref sig .tc .vmem S2x64 .f32) (h2 : a2.IsWhole) (hc : cond1_0 i)
    (x : Vec Ideal S10000x64 .f32) (j : Fin 64) :
    out1_A_1 (F := Ideal) c i a1 h1 a2 h2 hc x (ix2 (0 : Fin 2) j) = ∑ r : Fin 10000, x (ix2 r j) := by
  unfold out1_A_1
  rw [View.read_writes_eq_canon _ _ _ (cover1_A_1 c i a1 h1 a2 h2 hc x)]
  unfold kernelRun1_A
  dsimp only
  sl_unfold_words
  refine (canon_rows_at_row0 inb_S2x64_S1x64_1_0 inb_S2x64_S1x64_0_0 _ _ _ j).trans ?_
  refine (pay3_apply _ _ 0 j).trans ?_
  rw [read_whole_block a1 h1 inb_S10000x64_S10000x64_0_0 x,
    readCov_row0_of_whole (Val := Elt Ideal) a2.view inb_S2x64_S2x64_0_0 inb_S2x64_S1x64_0_0 (k1_pay1 (F := Ideal)) 0 j, pay1_apply, zero_add]

/-- The first point, row 1: the column sum of squares of the point's block. -/
theorem first_row1 (c : Dev nD) (i : grid1.Coords) (a1 : Memref sig .tc .vmem S10000x64 .f32) (h1 : a1.IsWhole)
    (a2 : Memref sig .tc .vmem S2x64 .f32) (h2 : a2.IsWhole) (hc : cond1_0 i)
    (x : Vec Ideal S10000x64 .f32) (j : Fin 64) :
    out1_A_1 (F := Ideal) c i a1 h1 a2 h2 hc x (ix2 (1 : Fin 2) j) = ∑ r : Fin 10000, x (ix2 r j) * x (ix2 r j) := by
  unfold out1_A_1
  rw [View.read_writes_eq_canon _ _ _ (cover1_A_1 c i a1 h1 a2 h2 hc x)]
  unfold kernelRun1_A
  dsimp only
  sl_unfold_words
  refine (canon_rows_at_row1 inb_S2x64_S1x64_1_0 _ _ j).trans ?_
  refine (pay4_apply _ _ 0 j).trans ?_
  rw [read_whole_block a1 h1 inb_S10000x64_S10000x64_0_0 x,
    readCov_row1_of_row0_whole (Val := Elt Ideal) a2.view inb_S2x64_S2x64_0_0 inb_S2x64_S1x64_0_0 inb_S2x64_S1x64_1_0 _ (k1_pay1 (F := Ideal)) 0 j,
    pay1_apply, zero_add]

/-! ## Ten blocks of 10000 rows -/

/-- Block `p`'s share of a sum over the 100000 rows: rows 10000 p … 10000 p + 9999 (nothing past the tenth block). -/
def blockPart (f : Fin 100000 → EReal) (p : ℕ) : EReal :=
  if h : p < 10 then ∑ q : Fin 10000, f ⟨10000 * p + q.val, by have := q.isLt; omega⟩ else 0

/-- A sum over the rows is the sum of the ten blocks' shares: row `r` is row `r % 10000` of block `r / 10000`. -/
theorem sum_rows_eq_sum_blocks (f : Fin 100000 → EReal) :
    ∑ r : Fin 100000, f r = ∑ p ∈ Finset.range 10, blockPart f p := by
  rw [Finset.sum_range, ← Equiv.sum_comp (finProdFinEquiv : Fin 10 × Fin 10000 ≃ Fin 100000) f, Fintype.sum_prod_type]
  refine Finset.sum_congr rfl fun p _ => ?_
  unfold blockPart
  rw [dif_pos p.isLt]
  refine Finset.sum_congr rfl fun q _ => congrArg f (Fin.ext ?_)
  show q.val + 10000 * p.val = 10000 * p.val + q.val
  omega

/-- A quantity that starts at `b 0` and gains `b (n + 1)` at point `n + 1` is, after point `n`, the sum of `b` up to `n`. -/
theorem fold_eq_sum (a : (n : ℕ) → n < cfg1.N → EReal) (b : ℕ → EReal)
    (h0 : ∀ h, a 0 h = b 0)
    (hs : ∀ n (h : n + 1 < cfg1.N), a (n + 1) h = a n (Nat.lt_of_succ_lt h) + b (n + 1)) :
    ∀ n (h : n < cfg1.N), a n h = ∑ p ∈ Finset.range (n + 1), b p
  | 0, h => by rw [Finset.sum_range_one]; exact h0 h
  | n + 1, h => by rw [hs n h, fold_eq_sum a b h0 hs n, Finset.sum_range_succ _ (n + 1)]

/-! ## The input block at a point -/

/-- The input window's block index at point `t` is (t, 0). -/
theorem in_index : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

section Launch

variable (V : (c : Dev nD) → (b : Ref sig .tc) → Buf (Elt Ideal) ((c : Thread nD τ).loc b))

/-- The input block of point `t`, at its literal type. -/
abbrev xblk (c : Dev nD) (t : Fin cfg1.N) : Vec Ideal S10000x64 .f32 := iblk1 (F := Ideal) V c 0 t

/-- The array the launch reads, at its literal type. -/
abbrev xarr (c : Dev nD) : S100000x64.Idx → EReal := V c main_v17

/-- Row `q` of the block of point `t` is row 10000 t + q of the array. -/
theorem xblk_apply (c : Dev nD) (t : Fin cfg1.N) (q : Fin 10000) (j : Fin 64) (hq : 10000 * t.val + q.val < 100000) :
    xblk V c t (ix2 q j) = xarr V c (ix2 ⟨10000 * t.val + q.val, hq⟩ j) := by
  unfold xblk iblk1
  rw [View.read_apply]
  show V c main_v17 _ = V c main_v17 _
  congr 1
  funext a
  apply Fin.ext
  match a with
  | ⟨0, _⟩ => show win1_0.index t 0 * 10000 + 1 * q.val = 10000 * t.val + q.val; rw [(in_index t).1]; omega
  | ⟨1, _⟩ => show win1_0.index t 1 * 64 + 1 * j.val = j.val; rw [(in_index t).2]; omega

/-- So a sum over the rows of the block of point `t` is block `t`'s share of the sum over the array's rows. -/
theorem sum_xblk (t : Fin cfg1.N) (g : S100000x64.Idx → EReal) (gb : S10000x64.Idx → EReal) (j : Fin 64)
    (hg : ∀ (q : Fin 10000) (hq : 10000 * t.val + q.val < 100000), gb (ix2 q j) = g (ix2 ⟨10000 * t.val + q.val, hq⟩ j)) :
    ∑ q : Fin 10000, gb (ix2 q j) = blockPart (fun r => g (ix2 r j)) t.val := by
  have hN : t.val < 10 := lt_of_lt_of_eq t.isLt (show cfg1.N = 10 from N_1)
  unfold blockPart
  rw [dif_pos hN]
  exact Finset.sum_congr rfl fun q _ => hg q _

/-! ## The running sums -/

/-- After point `n`, entry (0, j) of the 2 by 64 block is the first `n + 1` blocks' shares of channel `j`'s sum. -/
theorem running_sum (c : Dev nD) (j : Fin 64) (n : ℕ) (h : n < cfg1.N) :
    outsAt1 (F := Ideal) V c n h (ix2 (0 : Fin 2) j)
      = ∑ p ∈ Finset.range (n + 1), blockPart (fun r => xarr V c (ix2 r j)) p := by
  refine fold_eq_sum (fun n h => outsAt1 (F := Ideal) V c n h (ix2 (0 : Fin 2) j)) _ (fun h => ?_) (fun n h => ?_) n h
  · show outsAt1 (F := Ideal) V c 0 h (ix2 (0 : Fin 2) j) = _
    rw [outsAt1_A V c ⟨0, h⟩ rfl]
    refine (first_row0 c (grid1.coords ⟨0, h⟩) (ms1_0 ⟨0, h⟩) (hs1_0 ⟨0, h⟩) (ms1_1 ⟨0, h⟩) (hs1_1 ⟨0, h⟩)
      ((hcond1_0 ⟨0, h⟩).mpr rfl) (xblk V c ⟨0, h⟩) j).trans ?_
    exact sum_xblk ⟨0, h⟩ (xarr V c) (xblk V c ⟨0, h⟩) j fun q hq => xblk_apply V c ⟨0, h⟩ q j hq
  · have hN : cfg1.N = 10 := N_1
    have hB : ¬(⟨n + 1, h⟩ : Fin cfg1.N).val % 10 = 0 := by dsimp only; omega
    show outsAt1 (F := Ideal) V c (n + 1) h (ix2 (0 : Fin 2) j) = outsAt1 (F := Ideal) V c n _ (ix2 (0 : Fin 2) j) + _
    rw [outsAt1_B V c ⟨n + 1, h⟩ hB]
    dsimp only
    refine (later_row0 c (grid1.coords ⟨n + 1, h⟩) (ms1_0 ⟨n + 1, h⟩) (hs1_0 ⟨n + 1, h⟩) (ms1_1 ⟨n + 1, h⟩) (hs1_1 ⟨n + 1, h⟩)
      (fun hh => hB ((hcond1_0 ⟨n + 1, h⟩).mp hh)) (xblk V c ⟨n + 1, h⟩) (outsAt1 (F := Ideal) V c n (Nat.lt_of_succ_lt h)) j).trans ?_
    exact congrArg (outsAt1 (F := Ideal) V c n (Nat.lt_of_succ_lt h) (ix2 (0 : Fin 2) j) + ·)
      (sum_xblk ⟨n + 1, h⟩ (xarr V c) (xblk V c ⟨n + 1, h⟩) j fun q hq => xblk_apply V c ⟨n + 1, h⟩ q j hq)

/-- After point `n`, entry (1, j) is the first `n + 1` blocks' shares of channel `j`'s sum of squares. -/
theorem running_sumsq (c : Dev nD) (j : Fin 64) (n : ℕ) (h : n < cfg1.N) :
    outsAt1 (F := Ideal) V c n h (ix2 (1 : Fin 2) j)
      = ∑ p ∈ Finset.range (n + 1), blockPart (fun r => xarr V c (ix2 r j) * xarr V c (ix2 r j)) p := by
  refine fold_eq_sum (fun n h => outsAt1 (F := Ideal) V c n h (ix2 (1 : Fin 2) j)) _ (fun h => ?_) (fun n h => ?_) n h
  · show outsAt1 (F := Ideal) V c 0 h (ix2 (1 : Fin 2) j) = _
    rw [outsAt1_A V c ⟨0, h⟩ rfl]
    refine (first_row1 c (grid1.coords ⟨0, h⟩) (ms1_0 ⟨0, h⟩) (hs1_0 ⟨0, h⟩) (ms1_1 ⟨0, h⟩) (hs1_1 ⟨0, h⟩)
      ((hcond1_0 ⟨0, h⟩).mpr rfl) (xblk V c ⟨0, h⟩) j).trans ?_
    exact sum_xblk ⟨0, h⟩ (fun i => xarr V c i * xarr V c i) (fun y => xblk V c ⟨0, h⟩ y * xblk V c ⟨0, h⟩ y) j
      fun q hq => congrArg (fun v : EReal => v * v) (xblk_apply V c ⟨0, h⟩ q j hq)
  · have hN : cfg1.N = 10 := N_1
    have hB : ¬(⟨n + 1, h⟩ : Fin cfg1.N).val % 10 = 0 := by dsimp only; omega
    show outsAt1 (F := Ideal) V c (n + 1) h (ix2 (1 : Fin 2) j) = outsAt1 (F := Ideal) V c n _ (ix2 (1 : Fin 2) j) + _
    rw [outsAt1_B V c ⟨n + 1, h⟩ hB]
    dsimp only
    refine (later_row1 c (grid1.coords ⟨n + 1, h⟩) (ms1_0 ⟨n + 1, h⟩) (hs1_0 ⟨n + 1, h⟩) (ms1_1 ⟨n + 1, h⟩) (hs1_1 ⟨n + 1, h⟩)
      (fun hh => hB ((hcond1_0 ⟨n + 1, h⟩).mp hh)) (xblk V c ⟨n + 1, h⟩) (outsAt1 (F := Ideal) V c n (Nat.lt_of_succ_lt h)) j).trans ?_
    exact congrArg (outsAt1 (F := Ideal) V c n (Nat.lt_of_succ_lt h) (ix2 (1 : Fin 2) j) + ·)
      (sum_xblk ⟨n + 1, h⟩ (fun i => xarr V c i * xarr V c i) (fun y => xblk V c ⟨n + 1, h⟩ y * xblk V c ⟨n + 1, h⟩ y) j
        fun q hq => congrArg (fun v : EReal => v * v) (xblk_apply V c ⟨n + 1, h⟩ q j hq))

/-! ## From the last point to the array -/

/-- The output window's block index is (0, 0) at every point. -/
theorem out_index : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- So entry (r, j) of the block a point writes back is entry (r, j) of the 2 by 64 array. -/
theorem out_emb (t : Fin cfg1.N) (r : Fin 2) (j : Fin 64) :
    ((cfg1.win 1).blk t).view.emb (ix2 r j) = ix2 r j := by
  funext a
  apply Fin.ext
  match a with
  | ⟨0, _⟩ => show win1_1.index t 0 * 2 + 1 * r.val = r.val; rw [(out_index t).1]; omega
  | ⟨1, _⟩ => show win1_1.index t 1 * 64 + 1 * j.val = j.val; rw [(out_index t).2]; omega

/-- The array is written once, after the tenth point, and that write puts at (r, j) what the block held there:
    the array after the launch is the block after the last point. -/
theorem arr_entry (c : Dev nD) (r : Fin 2) (j : Fin 64) (h9 : 9 < cfg1.N) :
    (dat1 (F := Ideal) V c).arrAt 1 cfg1.N (ix2 r j) = outsAt1 (F := Ideal) V c 9 h9 (ix2 r j) := by
  have hf : (cfg1.win 1).flush ⟨9, h9⟩ = true := (flush1_1 ⟨9, h9⟩).mpr rfl
  refine (congrFun (congrArg ((dat1 (F := Ideal) V c).arrAt 1) (N_1 : cfg1.N = 9 + 1)) (ix2 r j)).trans ?_
  rw [Pipeline.Dat.arrAt_succ_apply, dif_pos h9, if_pos hf]
  refine (congrArg _ (out_emb ⟨9, h9⟩ r j).symm).trans ?_
  refine (View.write_emb_of_mem _ _ (Finset.mem_univ _)).trans ?_
  show (cfg1.win 1).cut (grid1.coords ⟨9, h9⟩) ((dat1 (F := Ideal) V c).after 1 ⟨9, h9⟩) (ix2 r j) = _
  rw [after1_1]
  show outsAt1 (F := Ideal) V c 9 h9 ((cfg1.win 1).xinj (grid1.coords ⟨9, h9⟩) (ix2 r j)) = _
  refine congrArg (outsAt1 (F := Ideal) V c 9 h9) (funext fun a => Fin.ext ?_)
  match a with
  | ⟨0, _⟩ => rfl
  | ⟨1, _⟩ => rfl

end Launch

/-- Row 0 of the statistics array the second launch leaves: channel `j`'s sum over all rows of `main_v17`. -/
theorem stats_sum (V : (c : Dev nD) → (b : Ref sig .tc) → Buf (Elt Ideal) ((c : Thread nD τ).loc b)) (c : Dev nD) (j : Fin 64) :
    (dat1 (F := Ideal) V c).arrAt 1 cfg1.N (ix2 (0 : Fin 2) j) = Cert.Spec.colSum (V c main_v17) j := by
  have h9 : 9 < cfg1.N := by rw [show cfg1.N = 10 from N_1]; decide
  rw [arr_entry V c 0 j h9]
  refine (running_sum V c j 9 h9).trans ?_
  exact (sum_rows_eq_sum_blocks fun r => xarr V c (ix2 r j)).symm

/-- Row 1: channel `j`'s sum of squares over all rows of `main_v17`. -/
theorem stats_sumsq (V : (c : Dev nD) → (b : Ref sig .tc) → Buf (Elt Ideal) ((c : Thread nD τ).loc b)) (c : Dev nD) (j : Fin 64) :
    (dat1 (F := Ideal) V c).arrAt 1 cfg1.N (ix2 (1 : Fin 2) j) = Cert.Spec.colSumSq (V c main_v17) j := by
  have h9 : 9 < cfg1.N := by rw [show cfg1.N = 10 from N_1]; decide
  rw [arr_entry V c 1 j h9]
  refine (running_sumsq V c j 9 h9).trans ?_
  exact (sum_rows_eq_sum_blocks fun r => xarr V c (ix2 r j) * xarr V c (ix2 r j)).symm

end Cert.KernelIdeal.StatsValue

end
-- ==== Proof.NormValue.lean ====
/-
  The third launch: normalise and clamp.
  Grid point t reads rows 10000 t .. 10000 t + 9999 of `out` and the four 1 by 64 rows (mean, variance,
  scale, shift), computes the normalised, clamped block pointwise and writes it back whole; the ten blocks
  tile the result.
-/
import proofs.«154689_j257698038139_1_alg».proof.Proof.Gen.KernelIdeal.Frame
import proofs.«154689_j257698038139_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormValue

open Cert.KernelIdeal Cert.KernelIdeal.Gen Idealize.ShloMosaic Idealize.ShloMosaic.TcCoe Idealize.ShloMosaic.ValueIdx
open Idealize.SL.Sem

/-! ## The payload at an index -/

/-- The reciprocal square root of a vector, read at an index. -/
private theorem rsqrt_apply {s : Shape} {φ : FTy} (a : FVec Ideal s φ) (i : s.Idx) : rsqrt a i = Ideal.rsqrt (a i) := rfl

/-- At row `q`, channel `j` of a block the body computes `Spec.normalizeAt` of the block's entry there and of channel `j`
    of the four rows: the shape casts are identities, each row is broadcast down the 10000 rows, and the rest is
    pointwise: subtract the mean, multiply by the reciprocal root of variance plus `eps`, by the scale, add the shift,
    take the maximum with zero. -/
private theorem payload_apply (x0 : Vec Ideal S10000x64 .f32) (x1 x2 x3 x4 : Vec Ideal S1x64 .f32) (q : Fin 10000) (j : Fin 64) :
    k2_pay1 x0 x1 x2 x3 x4 (ix2 q j)
      = Cert.Spec.normalizeAt (x0 (ix2 q j)) (x1 (ix2 (0 : Fin 1) j)) (x2 (ix2 (0 : Fin 1) j)) (x3 (ix2 (0 : Fin 1) j)) (x4 (ix2 (0 : Fin 1) j)) := by
  unfold k2_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply,
    rsqrt_apply, addf_apply, broadcast_apply, Ideal.ofBits_def, Ideal.ofBits_def]
  unfold Cert.Spec.normalizeAt Cert.Spec.eps
  rfl

/-- A block of 10000 rows normalised: if `x0` is rows `10000 n … 10000 n + 9999` of `o`, the payload at `y` is
    `Spec.normalize` of `o` and the four rows at the array index `k` with row `10000 n + y 0` and channel `y 1`. -/
private theorem block_normalize (x0 : Vec Ideal S10000x64 .f32) (x1 x2 x3 x4 : Vec Ideal S1x64 .f32) (o : S100000x64.Idx → EReal) (n : Nat)
    (h0 : ∀ (x : S10000x64.Idx) (k : S100000x64.Idx), (k 0).val = 10000 * n + (x 0).val → (k 1).val = (x 1).val → x0 x = o k)
    (y : S10000x64.Idx) (k : S100000x64.Idx) (hk0 : (k 0).val = 10000 * n + (y 0).val) (hk1 : (k 1).val = (y 1).val) :
    k2_pay1 x0 x1 x2 x3 x4 y
      = Cert.Spec.normalize o (fun j => x1 (ix2 (0 : Fin 1) j)) (fun j => x2 (ix2 (0 : Fin 1) j))
          (fun j => x3 (ix2 (0 : Fin 1) j)) (fun j => x4 (ix2 (0 : Fin 1) j)) k := by
  obtain ⟨q, j, rfl⟩ : ∃ (q : Fin 10000) (j : Fin 64), y = ix2 q j := ⟨y 0, y 1, eq_ix2 y⟩
  obtain ⟨r, j', rfl⟩ : ∃ (r : Fin 100000) (j' : Fin 64), k = ix2 r j' := ⟨k 0, k 1, eq_ix2 k⟩
  obtain rfl : j' = j := Fin.ext hk1
  rw [payload_apply, Cert.Spec.normalize_ix2, h0 (ix2 q j') (ix2 r j') hk0 hk1]

/-! ## The blocks of the ten points -/

/-- The offsets of a whole-buffer access are zero on both axes. -/
private theorem zero_offsets : (![0, 0] : Fin 2 → Nat) = fun _ => 0 := funext fun a => by fin_cases a <;> rfl

/-- The index maps over the ten grid points: the rows window and the result window sit at block row `t`, block column 0;
    the four one-row windows sit at block (0, 0) at every point. -/
private theorem block_indices : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

section Blocks

variable (V : (c : Dev nD) → (b : Ref sig .tc) → Buf (Elt Ideal) ((c : Thread nD τ).loc b)) (c : Dev nD)

/-- The rows window's block at point `t` is rows `10000 t … 10000 t + 9999` of `main_v17`: an entry of a block sits in the
    array, on each axis, at the block index times the block's extent plus its own coordinate. -/
private theorem rows_block_apply (t : Fin cfg2.N) (x : S10000x64.Idx) (k : S100000x64.Idx)
    (hk0 : (k 0).val = 10000 * t.val + (x 0).val) (hk1 : (k 1).val = (x 1).val) :
    (iblk2 V c 0 t : Vec Ideal S10000x64 .f32) x = (V c main_v17 : S100000x64.Idx → EReal) k := by
  obtain ⟨e0, e1, -⟩ := block_indices t
  unfold iblk2
  rw [View.read_apply]
  show V c main_v17 _ = V c main_v17 _
  congr 1
  funext a
  apply Fin.ext
  match a with
  | ⟨0, _⟩ => show win2_0.index t 0 * 10000 + 1 * (x 0).val = (k 0).val; rw [e0, hk0]; omega
  | ⟨1, _⟩ => show win2_0.index t 1 * 64 + 1 * (x 1).val = (k 1).val; rw [e1, hk1]; omega

/-- The mean window's block at every point is the whole one-row array `main_v29`: its block index is (0, 0). -/
private theorem mean_block (t : Fin cfg2.N) : (iblk2 V c 1 t : Vec Ideal S1x64 .f32) = V c main_v29 := by
  obtain ⟨-, -, -, -, e0, e1, -⟩ := block_indices t
  funext x
  unfold iblk2
  rw [View.read_apply]
  show V c main_v29 _ = V c main_v29 _
  congr 1
  funext a
  apply Fin.ext
  match a with
  | ⟨0, _⟩ => show win2_1.index t 0 * 1 + 1 * (x 0).val = (x 0).val; rw [e0]; omega
  | ⟨1, _⟩ => show win2_1.index t 1 * 64 + 1 * (x 1).val = (x 1).val; rw [e1]; omega

/-- The variance window's block at every point is the whole one-row array `main_v30`: its block index is (0, 0). -/
private theorem variance_block (t : Fin cfg2.N) : (iblk2 V c 2 t : Vec Ideal S1x64 .f32) = V c main_v30 := by
  obtain ⟨-, -, -, -, -, -, e0, e1, -⟩ := block_indices t
  funext x
  unfold iblk2
  rw [View.read_apply]
  show V c main_v30 _ = V c main_v30 _
  congr 1
  funext a
  apply Fin.ext
  match a with
  | ⟨0, _⟩ => show win2_2.index t 0 * 1 + 1 * (x 0).val = (x 0).val; rw [e0]; omega
  | ⟨1, _⟩ => show win2_2.index t 1 * 64 + 1 * (x 1).val = (x 1).val; rw [e1]; omega

/-- The scale window's block at every point is the whole one-row array `main_v31`: its block index is (0, 0). -/
private theorem scale_block (t : Fin cfg2.N) : (iblk2 V c 3 t : Vec Ideal S1x64 .f32) = V c main_v31 := by
  obtain ⟨-, -, -, -, -, -, -, -, e0, e1, -⟩ := block_indices t
  funext x
  unfold iblk2
  rw [View.read_apply]
  show V c main_v31 _ = V c main_v31 _
  congr 1
  funext a
  apply Fin.ext
  match a with
  | ⟨0, _⟩ => show win2_3.index t 0 * 1 + 1 * (x 0).val = (x 0).val; rw [e0]; omega
  | ⟨1, _⟩ => show win2_3.index t 1 * 64 + 1 * (x 1).val = (x 1).val; rw [e1]; omega

/-- The shift window's block at every point is the whole one-row array `main_v32`: its block index is (0, 0). -/
private theorem shift_block (t : Fin cfg2.N) : (iblk2 V c 4 t : Vec Ideal S1x64 .f32) = V c main_v32 := by
  obtain ⟨-, -, -, -, -, -, -, -, -, -, e0, e1⟩ := block_indices t
  funext x
  unfold iblk2
  rw [View.read_apply]
  show V c main_v32 _ = V c main_v32 _
  congr 1
  funext a
  apply Fin.ext
  match a with
  | ⟨0, _⟩ => show win2_4.index t 0 * 1 + 1 * (x 0).val = (x 0).val; rw [e0]; omega
  | ⟨1, _⟩ => show win2_4.index t 1 * 64 + 1 * (x 1).val = (x 1).val; rw [e1]; omega

/-- What point `t` writes back is block `t` of the normalised array: the body stores its payload over the whole staging
    buffer, and at row `y 0`, channel `y 1` of the block the payload normalises row `10000 t + y 0` of `main_v17` with channel
    `y 1` of the four rows, which is where that entry of the block sits in the result array. -/
private theorem written_block (t : Fin cfg2.N) :
    (dat2 (F := Ideal) V c).flushed 5 t = ((cfg2.win 5).blk t).view.read (Elt Ideal)
      (Cert.Spec.normalize (V c main_v17) (fun j => V c main_v29 (ix2 (0 : Fin 1) j)) (fun j => V c main_v30 (ix2 (0 : Fin 1) j))
          (fun j => V c main_v31 (ix2 (0 : Fin 1) j)) (fun j => V c main_v32 (ix2 (0 : Fin 1) j))) := by
  show (cfg2.win 5).cut (grid2.coords t) ((dat2 V c).after 5 t) = _
  rw [after2_5]
  unfold out2_5
  rw [View.canon_unit_zero zero_offsets]
  simp only [View.ld_unit_zero (S := S10000x64) zero_offsets, View.ld_unit_zero (S := S1x64) zero_offsets]
  rw [mean_block, variance_block, scale_block, shift_block]
  obtain ⟨-, -, e0, e1, -⟩ := block_indices t
  funext y
  refine block_normalize (iblk2 V c 0 t) (V c main_v29) (V c main_v30) (V c main_v31) (V c main_v32) (V c main_v17) t.val
    (fun x k => rows_block_apply V c t x k) y (((cfg2.win 5).blk t).view.emb y) ?_ ?_
  · show win2_5.index t 0 * 10000 + 1 * (y 0).val = 10000 * t.val + (y 0).val
    rw [e0]; omega
  · show win2_5.index t 1 * 64 + 1 * (y 1).val = (y 1).val
    rw [e1]; omega

end Blocks

/-! ## The ten blocks tile the result -/

/-- Every index of the result array is written back by some point: row `r` lies in the block of point `r / 10000`. -/
private theorem rows_covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, e0, e1, -⟩ := block_indices t
  refine ⟨t, flush2_5 t, ?_⟩
  show i ∈ ((View.whole main_v33).slice (win2_5.rect t)).set
  rw [View.set_slice_whole, Rect.mem_set_unit]
  intro a
  match a with
  | ⟨0, _⟩ =>
    show win2_5.index t 0 * 10000 ≤ (i 0).val ∧ (i 0).val < win2_5.index t 0 * 10000 + 10000
    rw [e0, ht]; omega
  | ⟨1, _⟩ =>
    show win2_5.index t 1 * 64 ≤ (i 1).val ∧ (i 1).val < win2_5.index t 1 * 64 + 64
    rw [e1]; omega

/-- Whatever the buffers hold when the third launch is entered (`V`), it leaves in its result array
    `Spec.normalize` of `main_v17` with the rows `main_v29` (mean), `main_v30` (variance), `main_v31` (scale)
    and `main_v32` (shift). -/
theorem norm_array (V : (c : Dev nD) → (b : Ref sig .tc) → Buf (Elt Ideal) ((c : Thread nD τ).loc b)) (c : Dev nD) :
    (dat2 (F := Ideal) V c).arrAt 5 cfg2.N
      = Cert.Spec.normalize (V c main_v17) (fun j => V c main_v29 (ix2 (0 : Fin 1) j)) (fun j => V c main_v30 (ix2 (0 : Fin 1) j))
          (fun j => V c main_v31 (ix2 (0 : Fin 1) j)) (fun j => V c main_v32 (ix2 (0 : Fin 1) j)) :=
  (dat2 (F := Ideal) V c).arrAt_eq_of_cover 5 _ (fun t _ => written_block V c t) rows_covered

end Cert.KernelIdeal.NormValue

end
-- ==== Proof.HostReads.lean ====
/-
  The host operations between the launches, read off the buffer contents at each boundary.
  Before the first launch the rows of `x` are gathered (`featOf`); between the first and the second the
  products are scatter-added into a zero array (`outOf`); between the second and the third the two rows of
  column sums become the mean and the variance rows, and scale and shift are laid out as 1 by 64 rows.
-/
import proofs.«154689_j257698038139_1_alg».proof.Proof.Gen.KernelIdeal.Frame
import proofs.«154689_j257698038139_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
set_option maxRecDepth 16384

noncomputable section

namespace Cert.KernelIdeal.HostReads

open Cert.KernelIdeal Cert.KernelIdeal.Gen Idealize.ShloMosaic Idealize.ShloMosaic.TcCoe Idealize.ShloMosaic.ValueIdx
open Idealize.SL.Sem

/-- The gathered features: row `in_idx[k, p]` of `x` for every offset `k` and pair `p`, a negative index
    first wrapped by the number of rows (what `x[in_idx]` lowers to). -/
def featOf (a0 : FVec Ideal S100000x64 .f32) (a4 : IVec S27x40000 32) : FVec Ideal S27x40000x64 .f32 :=
  Host.gather gather_S100000x64_S27x40000x1_S27x40000x64_2_0_n_n_0_2_164 a0
    (broadcastInDim S27x40000x1 ![0, 1] bcast_S27x40000_S27x40000x1_0_1
      (select (cmpi .slt a4 (broadcastInDim S27x40000 ![] bcast_S_S27x40000 (constantI S_ 32 0#32)))
        (addi a4 (broadcastInDim S27x40000 ![] bcast_S_S27x40000 (constantI S_ 32 100000#32))) a4))

/-- The scatter-add: the products `p`, flattened to 1080000 rows, added into a zero array at the rows
    `out_idx` names (a negative index first wrapped by the number of rows). -/
def outOf (p : FVec Ideal S27x40000x64 .f32) (a5 : IVec S27x40000 32) : FVec Ideal S100000x64 .f32 :=
  Host.scatterAdd scatter_S100000x64_S1080000x1_S1080000x64_1_0_0_1
    (broadcastInDim S100000x64 ![] bcast_S_S100000x64 (constant (F := Ideal) S_ .f32 0x00000000#32))
    (broadcastInDim S1080000x1 ![0] bcast_S1080000_S1080000x1_0
      (select (cmpi .slt (shapeCast _ a5 shapeCasts_S27x40000_S1080000) (broadcastInDim S1080000 ![] bcast_S_S1080000 (constantI S_ 32 0#32)))
        (addi (shapeCast _ a5 shapeCasts_S27x40000_S1080000) (broadcastInDim S1080000 ![] bcast_S_S1080000 (constantI S_ 32 100000#32)))
        (shapeCast _ a5 shapeCasts_S27x40000_S1080000)))
    (shapeCast _ p shapeCasts_S27x40000x64_S1080000x64)

variable (m : (ℓ : Loc nD τ sig) → Buf (Elt Ideal) ℓ) (ρ : Dev nD → PrngReg)

/-! ## Layout steps of the third stretch read at an index -/

/-- A vector of 64 laid out as a 1 by 64 row, read at column `j`: row-major position `0 * 64 + j = j`. -/
private theorem row_apply {α : Type} (x : S64.Idx → α) (j : Fin 64) :
    shapeCast S1x64 x shapeCasts_S64_S1x64 (ix2 (0 : Fin 1) j) = x (ix1 j) :=
  shapeCast_apply x _ (ix2 (0 : Fin 1) j) (ix1 j) (by
    rw [Shape.rowMajor_val_two, Shape.rowMajor_val_one]
    show j.val = 0 * 64 + j.val
    omega)

/-- Row 0 of a 2 by 64 array, flattened to 64 entries, read at `j`. -/
private theorem slice0_apply {α : Type} (x : S2x64.Idx → α) (j : Fin 64) :
    shapeCast S64 (extractStridedSlice S1x64 ![0, 0] x slices_S2x64_S1x64_0_0) shapeCasts_S1x64_S64 (ix1 j)
      = x (ix2 (0 : Fin 2) j) := by
  refine (shapeCast_apply _ _ (ix1 j) (ix2 (0 : Fin 1) j) (by
    rw [Shape.rowMajor_val_two, Shape.rowMajor_val_one]
    show 0 * 64 + j.val = j.val
    omega)).trans ?_
  refine extractStridedSlice_apply _ x _ (ix2 (0 : Fin 1) j) (ix2 (0 : Fin 2) j) fun a => ?_
  match a with
  | ⟨0, _⟩ => rfl
  | ⟨1, _⟩ => show j.val = 0 + j.val; omega

/-- Row 1 of a 2 by 64 array, flattened to 64 entries, read at `j`. -/
private theorem slice1_apply {α : Type} (x : S2x64.Idx → α) (j : Fin 64) :
    shapeCast S64 (extractStridedSlice S1x64 ![1, 0] x slices_S2x64_S1x64_1_0) shapeCasts_S1x64_S64 (ix1 j)
      = x (ix2 (1 : Fin 2) j) := by
  refine (shapeCast_apply _ _ (ix1 j) (ix2 (0 : Fin 1) j) (by
    rw [Shape.rowMajor_val_two, Shape.rowMajor_val_one]
    show 0 * 64 + j.val = j.val
    omega)).trans ?_
  refine extractStridedSlice_apply _ x _ (ix2 (0 : Fin 1) j) (ix2 (1 : Fin 2) j) fun a => ?_
  match a with
  | ⟨0, _⟩ => rfl
  | ⟨1, _⟩ => show j.val = 0 + j.val; omega

/-- Entering the first launch, `main_v6` holds the gathered features of the arguments. -/
theorem W1_v6 (c : Dev nD) : W1 m ρ c (Proc.devRef .tc main_v6) = featOf (m ((c : Thread nD τ).loc main_arg0)) (m ((c : Thread nD τ).loc main_arg4)) := by
  show StableHlo.after hostOps0 _ (Proc.devRef .tc main_v6) = _
  after_results
  rfl

/-- Entering the first launch, the weights are as launched. -/
theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Leaving the first launch, `out_idx` is as launched: it is no window of the launch and no operation before it writes it. -/
private theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Entering the second launch, `main_v17` holds the scatter-add of what the first launch left in `main_v7`. -/
theorem W3_v17 (c : Dev nD) :
    W3 m ρ c (Proc.devRef .tc main_v17) = outOf (W2 m ρ c (Proc.devRef .tc main_v7)) (m ((c : Thread nD τ).loc main_arg5)) := by
  show StableHlo.after hostOps1 _ (Proc.devRef .tc main_v17) = _
  after_results
  rw [W2_arg5]
  rfl

/-- `main_v17` is not written after the second launch is entered: the third launch finds it as the second did. -/
theorem W5_v17 (c : Dev nD) : W5 m ρ c (Proc.devRef .tc main_v17) = W3 m ρ c (Proc.devRef .tc main_v17) :=
  calc W5 m ρ c (Proc.devRef .tc main_v17)
    _ = W4 m ρ c (Proc.devRef .tc main_v17) := StableHlo.after_of_forall_not_mem (b := Proc.devRef .tc main_v17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v17) :=
        (W4_arr m ρ c 0).trans (((dat1 (V3 m ρ) c).arrAt_in 0 rfl _).trans (A_eq1 (V3 m ρ) c 0))

/-- Leaving the second launch, `gamma` is as launched. -/
private theorem W4_arg2 (c : Dev nD) : W4 m ρ c (Proc.devRef .tc main_arg2) = m ((c : Thread nD τ).loc main_arg2) :=
  calc W4 m ρ c (Proc.devRef .tc main_arg2)
      _ = W3 m ρ c (Proc.devRef .tc main_arg2) := W4_of_ne m ρ c main_arg2 (by decide)
      _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W1 m ρ c (Proc.devRef .tc main_arg2) := W2_of_ne m ρ c main_arg2 (by decide)
      _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg2) := rfl

/-- Leaving the second launch, `beta` is as launched. -/
private theorem W4_arg3 (c : Dev nD) : W4 m ρ c (Proc.devRef .tc main_arg3) = m ((c : Thread nD τ).loc main_arg3) :=
  calc W4 m ρ c (Proc.devRef .tc main_arg3)
      _ = W3 m ρ c (Proc.devRef .tc main_arg3) := W4_of_ne m ρ c main_arg3 (by decide)
      _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W1 m ρ c (Proc.devRef .tc main_arg3) := W2_of_ne m ρ c main_arg3 (by decide)
      _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg3) := rfl

/-- The mean row as the third stretch composes it: row 0 of the statistics, flattened, divided by the
    broadcast number of rows, laid out as a 1 by 64 row. -/
private theorem W5_v29_eq (c : Dev nD) :
    W5 m ρ c (Proc.devRef .tc main_v29)
      = shapeCast S1x64
          (Host.divf
            (shapeCast S64 (extractStridedSlice S1x64 ![0, 0] (W4 m ρ c (Proc.devRef .tc main_v18)) slices_S2x64_S1x64_0_0) shapeCasts_S1x64_S64)
            (broadcastInDim S64 ![] bcast_S_S64 (constant (F := Ideal) S_ .f32 0x47C35000#32)))
          shapeCasts_S64_S1x64 := by
  show StableHlo.after hostOps2 _ (Proc.devRef .tc main_v29) = _
  after_results
  rfl

/-- The variance row as the third stretch composes it: row 1 over the number of rows, minus the square of
    row 0 over the number of rows, laid out as a 1 by 64 row. -/
private theorem W5_v30_eq (c : Dev nD) :
    W5 m ρ c (Proc.devRef .tc main_v30)
      = shapeCast S1x64
          (subf
            (Host.divf
              (shapeCast S64 (extractStridedSlice S1x64 ![1, 0] (W4 m ρ c (Proc.devRef .tc main_v18)) slices_S2x64_S1x64_1_0) shapeCasts_S1x64_S64)
              (broadcastInDim S64 ![] bcast_S_S64 (constant (F := Ideal) S_ .f32 0x47C35000#32)))
            (mulf
              (Host.divf
                (shapeCast S64 (extractStridedSlice S1x64 ![0, 0] (W4 m ρ c (Proc.devRef .tc main_v18)) slices_S2x64_S1x64_0_0) shapeCasts_S1x64_S64)
                (broadcastInDim S64 ![] bcast_S_S64 (constant (F := Ideal) S_ .f32 0x47C35000#32)))
              (Host.divf
                (shapeCast S64 (extractStridedSlice S1x64 ![0, 0] (W4 m ρ c (Proc.devRef .tc main_v18)) slices_S2x64_S1x64_0_0) shapeCasts_S1x64_S64)
                (broadcastInDim S64 ![] bcast_S_S64 (constant (F := Ideal) S_ .f32 0x47C35000#32)))))
          shapeCasts_S64_S1x64 := by
  show StableHlo.after hostOps2 _ (Proc.devRef .tc main_v30) = _
  after_results
  rfl

/-- The mean row entering the third launch: row 0 of the statistics divided by the number of rows. -/
theorem W5_v29 (c : Dev nD) (j : Fin 64) :
    W5 m ρ c (Proc.devRef .tc main_v29) (ix2 (0 : Fin 1) j)
      = Ideal.div (W4 m ρ c (Proc.devRef .tc main_v18) (ix2 (0 : Fin 2) j)) Cert.Spec.rows := by
  rw [W5_v29_eq]
  refine (row_apply _ j).trans ?_
  show Ideal.div _ _ = _
  rw [slice0_apply]
  rfl

/-- The variance row entering the third launch: row 1 of the statistics divided by the number of rows, minus
    the square of the mean. -/
theorem W5_v30 (c : Dev nD) (j : Fin 64) :
    W5 m ρ c (Proc.devRef .tc main_v30) (ix2 (0 : Fin 1) j)
      = Ideal.div (W4 m ρ c (Proc.devRef .tc main_v18) (ix2 (1 : Fin 2) j)) Cert.Spec.rows
        - Ideal.div (W4 m ρ c (Proc.devRef .tc main_v18) (ix2 (0 : Fin 2) j)) Cert.Spec.rows
          * Ideal.div (W4 m ρ c (Proc.devRef .tc main_v18) (ix2 (0 : Fin 2) j)) Cert.Spec.rows := by
  rw [W5_v30_eq]
  refine (row_apply _ j).trans ?_
  show Ideal.div _ _ - Ideal.div _ _ * Ideal.div _ _ = _
  rw [slice1_apply, slice0_apply]
  rfl

/-- The scale row entering the third launch is `gamma`. -/
theorem W5_v31 (c : Dev nD) (j : Fin 64) :
    W5 m ρ c (Proc.devRef .tc main_v31) (ix2 (0 : Fin 1) j) = m ((c : Thread nD τ).loc main_arg2) (ix1 j) := by
  have h : W5 m ρ c (Proc.devRef .tc main_v31)
      = shapeCast S1x64 (m ((c : Thread nD τ).loc main_arg2)) shapeCasts_S64_S1x64 := by
    show StableHlo.after hostOps2 _ (Proc.devRef .tc main_v31) = _
    after_results
    rw [W4_arg2]
    rfl
  rw [h]
  exact row_apply _ j

/-- The shift row entering the third launch is `beta`. -/
theorem W5_v32 (c : Dev nD) (j : Fin 64) :
    W5 m ρ c (Proc.devRef .tc main_v32) (ix2 (0 : Fin 1) j) = m ((c : Thread nD τ).loc main_arg3) (ix1 j) := by
  have h : W5 m ρ c (Proc.devRef .tc main_v32)
      = shapeCast S1x64 (m ((c : Thread nD τ).loc main_arg3)) shapeCasts_S64_S1x64 := by
    show StableHlo.after hostOps2 _ (Proc.devRef .tc main_v32) = _
    after_results
    rw [W4_arg3]
    rfl
  rw [h]
  exact row_apply _ j

end Cert.KernelIdeal.HostReads

end
-- ==== Proof.KernelValue.lean ====
/-
  The kernel program's result as one function of its arguments: the three launches' arrays chained through
  the host operations between them.
-/
import proofs.«154689_j257698038139_1_alg».proof.Proof.GemmValue
import proofs.«154689_j257698038139_1_alg».proof.Proof.StatsValue
import proofs.«154689_j257698038139_1_alg».proof.Proof.NormValue
import proofs.«154689_j257698038139_1_alg».proof.Proof.HostReads

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Cert.KernelIdeal.HostReads

variable (m : (ℓ : Loc nD τ sig) → Buf (Elt Ideal) ℓ) (ρ : Dev nD → PrngReg)

/-- `out`, as the second launch finds it: the scatter-add of the per-offset products of the gathered features. -/
theorem out_value (c : Dev nD) :
    W3 m ρ c (Proc.devRef .tc main_v17)
      = outOf (Cert.Spec.contrib (featOf (m ((c : Thread nD τ).loc main_arg0)) (m ((c : Thread nD τ).loc main_arg4))) (m ((c : Thread nD τ).loc main_arg1))) (m ((c : Thread nD τ).loc main_arg5)) := by
  -- what the first launch leaves in its result array: the products of what it found
  have h7 : W2 m ρ c (Proc.devRef .tc main_v7)
      = Cert.Spec.contrib (featOf (m ((c : Thread nD τ).loc main_arg0)) (m ((c : Thread nD τ).loc main_arg4))) (m ((c : Thread nD τ).loc main_arg1)) := by
    refine (W2_arr m ρ c 2).trans ?_
    rw [Cert.KernelIdeal.GemmValue.gemm_array (V1 m ρ) c]
    show Cert.Spec.contrib (W1 m ρ c (Proc.devRef .tc main_v6)) (W1 m ρ c (Proc.devRef .tc main_arg1)) = _
    rw [W1_v6 m ρ c, W1_arg1 m ρ c]
  rw [W3_v17 m ρ c, h7]

/-- The result array: `out` normalised by its column means and moment variances, scaled by `gamma`, shifted by
    `beta`, clamped at zero. -/
theorem result_value (c : Dev nD) :
    W6 m ρ c (Proc.devRef .tc main_v33)
      = Cert.Spec.normalize (W3 m ρ c (Proc.devRef .tc main_v17)) (Cert.Spec.mean (W3 m ρ c (Proc.devRef .tc main_v17)))
          (Cert.Spec.varMoment (W3 m ρ c (Proc.devRef .tc main_v17)))
          (fun j => m ((c : Thread nD τ).loc main_arg2) (ix1 j)) (fun j => m ((c : Thread nD τ).loc main_arg3) (ix1 j)) := by
  -- the statistics array the second launch leaves, entry by entry: column sums and column sums of squares of `out`
  have hs0 (j : Fin 64) : W4 m ρ c (Proc.devRef .tc main_v18) (ix2 (0 : Fin 2) j)
      = Cert.Spec.colSum (W3 m ρ c (Proc.devRef .tc main_v17)) j :=
    (congrFun (W4_arr m ρ c 1) _).trans (Cert.KernelIdeal.StatsValue.stats_sum (V3 m ρ) c j)
  have hs1 (j : Fin 64) : W4 m ρ c (Proc.devRef .tc main_v18) (ix2 (1 : Fin 2) j)
      = Cert.Spec.colSumSq (W3 m ρ c (Proc.devRef .tc main_v17)) j :=
    (congrFun (W4_arr m ρ c 1) _).trans (Cert.KernelIdeal.StatsValue.stats_sumsq (V3 m ρ) c j)
  -- the four rows the third launch finds
  have hmu : (fun j : Fin 64 => V5 m ρ c main_v29 (ix2 (0 : Fin 1) j)) = Cert.Spec.mean (W3 m ρ c (Proc.devRef .tc main_v17)) :=
    funext fun j => (W5_v29 m ρ c j).trans (by rw [hs0 j]; rfl)
  have hv : (fun j : Fin 64 => V5 m ρ c main_v30 (ix2 (0 : Fin 1) j)) = Cert.Spec.varMoment (W3 m ρ c (Proc.devRef .tc main_v17)) :=
    funext fun j => (W5_v30 m ρ c j).trans (by rw [hs0 j, hs1 j]; rfl)
  have hg : (fun j : Fin 64 => V5 m ρ c main_v31 (ix2 (0 : Fin 1) j)) = fun j => m ((c : Thread nD τ).loc main_arg2) (ix1 j) :=
    funext fun j => W5_v31 m ρ c j
  have hb : (fun j : Fin 64 => V5 m ρ c main_v32 (ix2 (0 : Fin 1) j)) = fun j => m ((c : Thread nD τ).loc main_arg3) (ix1 j) :=
    funext fun j => W5_v32 m ρ c j
  have hO : V5 m ρ c main_v17 = W3 m ρ c (Proc.devRef .tc main_v17) := W5_v17 m ρ c
  refine (W6_arr m ρ c 5).trans ?_
  rw [Cert.KernelIdeal.NormValue.norm_array (V5 m ρ) c, hO, hmu, hv, hg, hb]

end Cert.KernelIdeal.KernelValue

end
-- ==== Proof.RefValue.lean ====
/-
  The reference's result read index by index: the same per-offset products, scatter-add and normalisation,
  with the variance taken as the mean of the squared deviations.
-/
import proofs.«154689_j257698038139_1_alg».proof.Proof.Gen.ReferenceIdeal.Run
import proofs.«154689_j257698038139_1_alg».proof.Proof.Gen.ReferenceIdeal.Read
import proofs.«154689_j257698038139_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.SL.Sem

/-- The reference's batched product is the per-offset product of its gathered features and the weights. -/
theorem contrib_value (x0 : (⟨S100000x64, .f32⟩ : BufTy).Contents (Elt Ideal)) (x1 : (⟨S27x64x64, .f32⟩ : BufTy).Contents (Elt Ideal)) (x4 : (⟨S27x40000, .i32⟩ : BufTy).Contents (Elt Ideal)) :
    val_main_v7 (F := Ideal) x0 x1 x4 = Cert.Spec.contrib (val_main_v6 (F := Ideal) x0 x4) x1 := by
  funext i
  obtain ⟨k, p, o, rfl⟩ : ∃ (k : Fin 27) (p : Fin 40000) (o : Fin 64), i = ix3 k p o :=
    ⟨i 0, i 1, i 2, eq_ix3 i⟩
  rw [val_main_v7_apply]
  generalize val_main_v6 (F := Ideal) x0 x4 = G
  rw [Cert.Spec.contrib_ix3]
  unfold Cert.Spec.contribAt
  refine Finset.sum_congr rfl fun c _ => ?_
  have hl : lidx_main_v7 (ix3 k p o) c = ix3 k p c :=
    funext fun a => Fin.ext (by match a with | ⟨0, _⟩ => rfl | ⟨1, _⟩ => rfl | ⟨2, _⟩ => rfl)
  have hr : ridx_main_v7 (ix3 k p o) c = ix3 k c o :=
    funext fun a => Fin.ext (by match a with | ⟨0, _⟩ => rfl | ⟨1, _⟩ => rfl | ⟨2, _⟩ => rfl)
  rw [hl, hr]

/-- The reference's column mean is the specification's: the zero word the sum starts from is 0. -/
private theorem v20_at (x0 : (⟨S100000x64, .f32⟩ : BufTy).Contents (Elt Ideal)) (x1 : (⟨S27x64x64, .f32⟩ : BufTy).Contents (Elt Ideal)) (x4 x5 : (⟨S27x40000, .i32⟩ : BufTy).Contents (Elt Ideal)) (j : Fin 64) :
    val_main_v20 (F := Ideal) x0 x1 x4 x5 (ix1 j) = Cert.Spec.mean (val_main_v17 (F := Ideal) x0 x1 x4 x5) j := by
  have h18 : ∀ k : Fin 100000, idx_main_v18 (ix1 j) k = ix2 k j := fun k =>
    funext fun a => Fin.ext (by match a with | ⟨0, _⟩ => rfl | ⟨1, _⟩ => rfl)
  rw [val_main_v20_apply, val_main_v18_apply, val_main_v19_apply, val_main_cst_4_apply, val_main_cst_3_apply]
  generalize val_main_v17 (F := Ideal) x0 x1 x4 x5 = O
  simp only [Ideal.hostDivf_def, Ideal.ofBits_def, Ideal.ofBits_zero_f32, zero_add, h18]
  unfold Cert.Spec.mean Cert.Spec.colSum Cert.Spec.rows
  rfl

/-- The deviation of an entry from its column mean. -/
private theorem v23_at (x0 : (⟨S100000x64, .f32⟩ : BufTy).Contents (Elt Ideal)) (x1 : (⟨S27x64x64, .f32⟩ : BufTy).Contents (Elt Ideal)) (x4 x5 : (⟨S27x40000, .i32⟩ : BufTy).Contents (Elt Ideal)) (r : Fin 100000) (j : Fin 64) :
    val_main_v23 (F := Ideal) x0 x1 x4 x5 (ix2 r j)
      = val_main_v17 (F := Ideal) x0 x1 x4 x5 (ix2 r j) - Cert.Spec.mean (val_main_v17 (F := Ideal) x0 x1 x4 x5) j := by
  have h22 : idx_main_v21 (idx_main_v22 (ix2 r j)) = ix1 j :=
    funext fun a => Fin.ext (by match a with | ⟨0, _⟩ => rfl)
  rw [val_main_v23_apply, val_main_v22_apply, val_main_v21_apply, h22, v20_at]
  generalize val_main_v17 (F := Ideal) x0 x1 x4 x5 = O
  simp only [Ideal.subf_def]

/-- The squared deviation of an entry from its column mean. -/
private theorem v24_at (x0 : (⟨S100000x64, .f32⟩ : BufTy).Contents (Elt Ideal)) (x1 : (⟨S27x64x64, .f32⟩ : BufTy).Contents (Elt Ideal)) (x4 x5 : (⟨S27x40000, .i32⟩ : BufTy).Contents (Elt Ideal)) (r : Fin 100000) (j : Fin 64) :
    val_main_v24 (F := Ideal) x0 x1 x4 x5 (ix2 r j)
      = (val_main_v17 (F := Ideal) x0 x1 x4 x5 (ix2 r j) - Cert.Spec.mean (val_main_v17 (F := Ideal) x0 x1 x4 x5) j)
        * (val_main_v17 (F := Ideal) x0 x1 x4 x5 (ix2 r j) - Cert.Spec.mean (val_main_v17 (F := Ideal) x0 x1 x4 x5) j) := by
  rw [val_main_v24_apply, v23_at]
  generalize val_main_v17 (F := Ideal) x0 x1 x4 x5 = O
  simp only [Ideal.mulf_def]

/-- The reference's variance is the mean of the squared deviations. -/
private theorem v27_at (x0 : (⟨S100000x64, .f32⟩ : BufTy).Contents (Elt Ideal)) (x1 : (⟨S27x64x64, .f32⟩ : BufTy).Contents (Elt Ideal)) (x4 x5 : (⟨S27x40000, .i32⟩ : BufTy).Contents (Elt Ideal)) (j : Fin 64) :
    val_main_v27 (F := Ideal) x0 x1 x4 x5 (ix1 j) = Cert.Spec.varCentered (val_main_v17 (F := Ideal) x0 x1 x4 x5) j := by
  have h25 : ∀ k : Fin 100000, idx_main_v25 (ix1 j) k = ix2 k j := fun k =>
    funext fun a => Fin.ext (by match a with | ⟨0, _⟩ => rfl | ⟨1, _⟩ => rfl)
  have hsum : (∑ k : Fin 100000, val_main_v24 (F := Ideal) x0 x1 x4 x5 (idx_main_v25 (ix1 j) k))
      = ∑ r : Fin 100000,
          (val_main_v17 (F := Ideal) x0 x1 x4 x5 (ix2 r j) - Cert.Spec.mean (val_main_v17 (F := Ideal) x0 x1 x4 x5) j)
          * (val_main_v17 (F := Ideal) x0 x1 x4 x5 (ix2 r j) - Cert.Spec.mean (val_main_v17 (F := Ideal) x0 x1 x4 x5) j) :=
    Finset.sum_congr rfl fun k _ => by rw [h25 k, v24_at]
  rw [val_main_v27_apply, val_main_v25_apply, val_main_v26_apply, val_main_cst_6_apply, val_main_cst_5_apply, hsum]
  generalize val_main_v17 (F := Ideal) x0 x1 x4 x5 = O
  simp only [Ideal.hostDivf_def, Ideal.ofBits_def, Ideal.ofBits_zero_f32, zero_add]
  unfold Cert.Spec.varCentered Cert.Spec.rows
  rfl

/-- The reference's result: its `out` (`val_main_v17`) normalised by its column means and centred variances,
    scaled by `gamma`, shifted by `beta`, clamped at zero. -/
theorem result_value (x0 : (⟨S100000x64, .f32⟩ : BufTy).Contents (Elt Ideal)) (x1 : (⟨S27x64x64, .f32⟩ : BufTy).Contents (Elt Ideal)) (x2 x3 : (⟨S64, .f32⟩ : BufTy).Contents (Elt Ideal)) (x4 x5 : (⟨S27x40000, .i32⟩ : BufTy).Contents (Elt Ideal)) :
    val_main_v44 (F := Ideal) x0 x1 x2 x3 x4 x5
      = Cert.Spec.normalize (val_main_v17 (F := Ideal) x0 x1 x4 x5) (Cert.Spec.mean (val_main_v17 (F := Ideal) x0 x1 x4 x5))
          (Cert.Spec.varCentered (val_main_v17 (F := Ideal) x0 x1 x4 x5)) (fun j => x2 (ix1 j)) (fun j => x3 (ix1 j)) := by
  funext i
  obtain ⟨r, j, rfl⟩ : ∃ (r : Fin 100000) (j : Fin 64), i = ix2 r j := ⟨i 0, i 1, eq_ix2 i⟩
  have h29 : idx_main_v28 (idx_main_v29 (ix2 r j)) = ix1 j :=
    funext fun a => Fin.ext (by match a with | ⟨0, _⟩ => rfl)
  have h35 : idx_main_v34 (idx_main_v35 (ix2 r j)) = ix1 j :=
    funext fun a => Fin.ext (by match a with | ⟨0, _⟩ => rfl)
  have h38 : idx_main_v37 (idx_main_v38 (ix2 r j)) = ix1 j :=
    funext fun a => Fin.ext (by match a with | ⟨0, _⟩ => rfl)
  have h41 : idx_main_v40 (idx_main_v41 (ix2 r j)) = ix1 j :=
    funext fun a => Fin.ext (by match a with | ⟨0, _⟩ => rfl)
  rw [val_main_v44_apply, val_main_v42_apply, val_main_v39_apply, val_main_v36_apply, val_main_v30_apply,
    val_main_v29_apply, val_main_v28_apply, val_main_v35_apply, val_main_v34_apply, val_main_v33_apply,
    val_main_v32_apply, val_main_v31_apply, val_main_v38_apply, val_main_v37_apply, val_main_v41_apply,
    val_main_v40_apply, val_main_v43_apply, val_main_cst_7_apply, val_main_cst_8_apply,
    h29, h35, h38, h41, v20_at, v27_at, Cert.Spec.normalize_ix2]
  generalize val_main_v17 (F := Ideal) x0 x1 x4 x5 = O
  simp only [Ideal.maximumf_def, Ideal.addf_def, Ideal.mulf_def, Ideal.subf_def, Ideal.hostUnary_rsqrt_def,
    Ideal.ofBits_def]
  unfold Cert.Spec.normalizeAt Cert.Spec.eps
  rfl

end Cert.ReferenceIdeal.RefValue

end
-- ==== Proof.Finite.lean ====
/-
  Finiteness. The precondition says every entry of `x` and of the weights is a real number; gathering rows,
  finite sums of products, flattening and scatter-adding into zeros keep entries real, so every entry of `out`
  is a real number: what the variance identity needs.
-/
import proofs.«154689_j257698038139_1_alg».proof.Pre_finite_inputs
import proofs.«154689_j257698038139_1_alg».proof.Proof.Gen.Pre_finite_inputs
import proofs.«154689_j257698038139_1_alg».proof.Proof.Gen.ReferenceIdeal.Read
import proofs.«154689_j257698038139_1_alg».proof.Proof.Spec
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Idealize.SL.Sem

/-- A value whose absolute value compares below the word of +∞ is a real number. -/
private theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- Under the precondition every entry of `x` and every weight is a real number. -/
theorem args_real (x0 : FVec Ideal Cert.Pre_finite_inputs.S100000x64 .f32) (x1 : FVec Ideal Cert.Pre_finite_inputs.S27x64x64 .f32)
    (x2 x3 : FVec Ideal Cert.Pre_finite_inputs.S64 .f32) (x4 x5 : IVec Cert.Pre_finite_inputs.S27x40000 32)
    (h : Cert.Pre_finite_inputs.fn (F := Ideal) x0 x1 x2 x3 x4 x5 = (fun _ => 1#1)) :
    Cert.Spec.AllReal x0 ∧ Cert.Spec.AllReal x1 := by
  -- the predicate is a conjunction of four `all`s, each an `and`-reduction of the comparisons |x| < +∞
  have h' := congrFun h ValueIdx.ix0
  dsimp only [Cert.Pre_finite_inputs.fn, Cert.Pre_finite_inputs.fn_part1] at h'
  haveI : Subsingleton Cert.Pre_finite_inputs.S_.Idx := ⟨fun a b => funext fun d => d.elim0⟩
  obtain ⟨h123, _⟩ := IntOp.andi_eq_one.1 h'
  obtain ⟨h12, _⟩ := IntOp.andi_eq_one.1 h123
  obtain ⟨e0, e1⟩ := IntOp.andi_eq_one.1 h12
  refine ⟨fun i => ?_, fun i => ?_⟩
  · exact real_of_abs_lt_inf (x0 i) (Host.reduce_andi_all _ _ _ _ _ e0 i)
  · exact real_of_abs_lt_inf (x1 i) (Host.reduce_andi_all _ _ _ _ _ e1 i)

/-- A finite sum of real numbers is a real number. -/
private theorem sum_real {ι : Type} (t : Finset ι) (f : ι → EReal) (hf : ∀ i ∈ t, ∃ x : ℝ, f i = (x : EReal)) :
    ∃ y : ℝ, ∑ i ∈ t, f i = (y : EReal) := by
  classical
  induction t using Finset.induction_on with
  | empty => exact ⟨0, by simp⟩
  | insert a t ha ih =>
    obtain ⟨x, hx⟩ := hf a (Finset.mem_insert_self a t)
    obtain ⟨y, hy⟩ := ih fun i hi => hf i (Finset.mem_insert_of_mem hi)
    exact ⟨x + y, by rw [Finset.sum_insert ha, hx, hy, EReal.coe_add]⟩

/-- A real number plus a finite sum of real numbers is a real number. -/
private theorem add_sum_real {ι : Type} (a : EReal) (t : Finset ι) (f : ι → EReal) (ha : ∃ x : ℝ, a = (x : EReal))
    (hf : ∀ i ∈ t, ∃ x : ℝ, f i = (x : EReal)) : ∃ y : ℝ, a + ∑ i ∈ t, f i = (y : EReal) := by
  obtain ⟨x, hx⟩ := ha
  obtain ⟨y, hy⟩ := sum_real t f hf
  exact ⟨x + y, by rw [hx, hy, EReal.coe_add]⟩

open Cert.ReferenceIdeal.Read in
/-- Every flattened product row-times-weights is a real number: a sum over 64 products of an entry of `x`
    (the gathered row is a row of `x`) and a weight. -/
private theorem upd_real (x0 : (⟨Cert.ReferenceIdeal.S100000x64, .f32⟩ : BufTy).Contents (Elt Ideal))
    (x1 : (⟨Cert.ReferenceIdeal.S27x64x64, .f32⟩ : BufTy).Contents (Elt Ideal))
    (x4 : (⟨Cert.ReferenceIdeal.S27x40000, .i32⟩ : BufTy).Contents (Elt Ideal))
    (h0 : Cert.Spec.AllReal x0) (h1 : Cert.Spec.AllReal x1) (j : Cert.ReferenceIdeal.S1080000x64.Idx) :
    ∃ r : ℝ, val_main_v10 (F := Ideal) x0 x1 x4 j = (r : EReal) := by
  rw [val_main_v10_apply, val_main_v7_apply]
  refine sum_real _ _ fun k _ => ?_
  obtain ⟨a, ha⟩ : ∃ a : ℝ, val_main_v6 (F := Ideal) x0 x4 (lidx_main_v7 (idx_main_v10 j) k) = (a : EReal) := h0 _
  obtain ⟨b, hb⟩ := h1 (ridx_main_v7 (idx_main_v10 j) k)
  exact ⟨a * b, by rw [ha, hb, EReal.coe_mul]⟩

/-- An entry of an accumulating scatter is real when the operand's entry and all updates are: it is the
    operand's entry plus a finite sum of updates. -/
private theorem scatterAdd_real {s si su : Shape} (d : ScatterDims s si su) {w : Nat} (x : FVec Ideal s .f32)
    (idx : IVec si w) (upd : FVec Ideal su .f32) (i : s.Idx) (hx : ∃ r : ℝ, x i = (r : EReal))
    (hu : ∀ j, ∃ r : ℝ, upd j = (r : EReal)) :
    ∃ r : ℝ, Host.scatterAdd d x idx upd i = (r : EReal) := by
  show ∃ r : ℝ, Ideal.hostScatterAdd d x idx upd i = (r : EReal)
  unfold Ideal.hostScatterAdd
  exact add_sum_real _ _ _ hx fun j _ => hu j

open Cert.ReferenceIdeal.Read in
/-- With real `x` and weights every entry of the reference's `out` is a real number. -/
theorem out_real (x0 : (⟨Cert.ReferenceIdeal.S100000x64, .f32⟩ : BufTy).Contents (Elt Ideal))
    (x1 : (⟨Cert.ReferenceIdeal.S27x64x64, .f32⟩ : BufTy).Contents (Elt Ideal))
    (x4 x5 : (⟨Cert.ReferenceIdeal.S27x40000, .i32⟩ : BufTy).Contents (Elt Ideal))
    (h0 : Cert.Spec.AllReal x0) (h1 : Cert.Spec.AllReal x1) :
    Cert.Spec.AllReal (Cert.ReferenceIdeal.Read.val_main_v17 (F := Ideal) x0 x1 x4 x5) := by
  intro i
  -- the scatter starts from the zero word, which is the real number 0
  have hz : ∃ r : ℝ, val_main_v8 (F := Ideal) i = (r : EReal) := by
    refine ⟨0, ?_⟩
    rw [val_main_v8_apply, val_main_cst_apply]
    exact Ideal.ofBits_zero_f32
  unfold val_main_v17
  exact scatterAdd_real _ _ _ _ i hz (upd_real x0 x1 x4 h0 h1)

end Cert.Finite

end
-- ==== Proof.Bridge.lean ====
/-
  The two programs build `out` by the same host operations around the same per-offset products: the kernel's
  `out` and the reference's are one array.
-/
import proofs.«154689_j257698038139_1_alg».proof.Proof.HostReads
import proofs.«154689_j257698038139_1_alg».proof.Proof.RefValue

noncomputable section

namespace Cert.Bridge

open Idealize.ShloMosaic Idealize.ShloMosaic.ValueIdx Idealize.SL.Sem

/-- Gather, per-offset product, flatten, scatter-add: spelled in the kernel program's vocabulary and in the
    reference's, the same array. -/
theorem out_same (x0 : FVec Ideal Cert.KernelIdeal.S100000x64 .f32) (x1 : FVec Ideal Cert.KernelIdeal.S27x64x64 .f32)
    (x4 x5 : IVec Cert.KernelIdeal.S27x40000 32) :
    Cert.KernelIdeal.HostReads.outOf (Cert.Spec.contrib (Cert.KernelIdeal.HostReads.featOf x0 x4) x1) x5
      = Cert.ReferenceIdeal.Read.val_main_v17 (F := Ideal) x0 x1 x4 x5 := by
  -- the gathered features: the same gather of the same wrapped indices
  have hf : Cert.KernelIdeal.HostReads.featOf x0 x4 = Cert.ReferenceIdeal.Read.val_main_v6 (F := Ideal) x0 x4 := rfl
  unfold Cert.ReferenceIdeal.Read.val_main_v17 Cert.ReferenceIdeal.Read.val_main_v10
  rw [Cert.ReferenceIdeal.RefValue.contrib_value, hf]
  -- the products are now one term on both sides: name it, and the two scatter-adds are the same operation of it
  generalize Cert.Spec.contrib (Cert.ReferenceIdeal.Read.val_main_v6 (F := Ideal) x0 x4) x1 = p
  rfl

end Cert.Bridge

end
-- ==== Proof.lean ====
/-
  A sparse convolution block (gather rows, multiply by a per-offset weight matrix, scatter-add) followed by
  batch normalisation and a clamp at zero, as three launches against a plain reference.

  Over the extended reals both programs gather the same rows, form the same per-offset products and
  scatter-add them into the same array `out`. They then normalise every channel of `out` by its mean and its
  variance; the kernel takes the variance as the mean of the squares minus the square of the mean, the
  reference as the mean of the squared deviations. The two are one number when every entry of `out` is real,
  which the precondition gives: `x` and the weights are finite, and gathering, finite sums of products and
  scatter-adding into zeros keep entries real. Everything after the variance is the same expression on both
  sides.

  The three frames: the two kernel programs' are the generated ones; the reference's is its generated run
  with the result dropped. The idealisation rewrote nothing, so `preserves` is `True`.
-/
import proofs.«154689_j257698038139_1_alg».proof.Defs
import proofs.«154689_j257698038139_1_alg».proof.Proof.Gen.Kernel
import proofs.«154689_j257698038139_1_alg».proof.Proof.Gen.Kernel.Frame
import proofs.«154689_j257698038139_1_alg».proof.Proof.Gen.KernelIdeal
import proofs.«154689_j257698038139_1_alg».proof.Proof.Gen.KernelIdeal.Frame
import proofs.«154689_j257698038139_1_alg».proof.Proof.Gen.ReferenceIdeal
import proofs.«154689_j257698038139_1_alg».proof.Proof.Gen.ReferenceIdeal.Run
import proofs.«154689_j257698038139_1_alg».proof.Proof.Gen.ReferenceIdeal.Read
import proofs.«154689_j257698038139_1_alg».proof.Proof.Gen.Pre_finite_inputs
import proofs.«154689_j257698038139_1_alg».proof.Proof.RunValue
import proofs.«154689_j257698038139_1_alg».proof.Proof.KernelValue
import proofs.«154689_j257698038139_1_alg».proof.Proof.RefValue
import proofs.«154689_j257698038139_1_alg».proof.Proof.Finite
import proofs.«154689_j257698038139_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition the kernel program's result array is the reference's result term of the same
    arguments: both are `out` normalised, and on the real array `out` the two variances agree. -/
theorem kernel_result (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W6 m ρ c (Proc.devRef .tc Cert.KernelIdeal.main_v33)
      = Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  have hreal := Cert.Finite.args_real _ _ _ _ _ _ (hpre c)
  have hout := Cert.Finite.out_real _ _ (m ((c.tc : Thread Cert.KernelIdeal.nD Cert.KernelIdeal.τ).loc Cert.KernelIdeal.main_arg4)) (m ((c.tc : Thread Cert.KernelIdeal.nD Cert.KernelIdeal.τ).loc Cert.KernelIdeal.main_arg5)) hreal.1 hreal.2
  rw [Cert.KernelIdeal.KernelValue.result_value, Cert.ReferenceIdeal.RefValue.result_value,
    Cert.KernelIdeal.KernelValue.out_value, Cert.Bridge.out_same]
  exact congrArg (fun v => Cert.Spec.normalize _ _ v _ _) (funext fun j => (Cert.Spec.var_law _ hout j).symm)

theorem algebraic : Cert.algebraic_KernelIdeal_ReferenceIdeal := by
  intro m ρ m' ρ' hpre hagree
  refine ⟨fun c => Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (kernel_result m ρ hpre c), (h c).2⟩) (Cert.KernelIdeal.RunValue.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v44_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
